-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x64 : Shape := ⟨2, ![4000000, 64]⟩
abbrev S4000000 : Shape := ⟨1, ![4000000]⟩
abbrev S_ : Shape := ⟨0, ![]⟩

class Facts : Prop where
  bcast_S_S4000000x64 : S_.BroadcastsInDim S4000000x64 (![] : Fin 0 → Fin S4000000x64.rank)
  reducesTo_S4000000x64_S_d0_1 : S4000000x64.ReducesTo [0, 1] S_
  h_S_ : 0 < S_.numel

variable [Facts]

def fn {F : FTy → Type} [FloatOps F] (main_arg0 : FVec F S4000000x64 .f32) (main_arg1 : IVec S4000000 32) : IVec S_ 1 :=
  let main_v0 : FVec F S4000000x64 .f32 := Host.absf main_arg0
  let main_cst : FVec F S_ .f32 := constant S_ .f32 0x7F800000#32
  let main_v1 : FVec F S4000000x64 .f32 := broadcastInDim S4000000x64 ![] bcast_S_S4000000x64 main_cst
  let main_v2 : IVec S4000000x64 1 := cmpf .olt main_v0 main_v1
  let main_c : IVec S_ 1 := constantI S_ 1 1#1
  let main_v3 : IVec S_ 1 := (fun x v => Host.reduce IntOp.andi x v reducesTo_S4000000x64_S_d0_1 h_S_) main_v2 main_c
  main_v3
-- ==== Kernel.lean ====
abbrev S4000000x64 : Shape := ⟨2, ![4000000, 64]⟩
abbrev S4000000 : Shape := ⟨1, ![4000000]⟩
abbrev S_ : Shape := ⟨0, ![]⟩
abbrev S4063232x64 : Shape := ⟨2, ![4063232, 64]⟩
abbrev S4063232 : Shape := ⟨1, ![4063232]⟩
abbrev S2x32x64 : Shape := ⟨3, ![2, 32, 64]⟩
abbrev S32768x64 : Shape := ⟨2, ![32768, 64]⟩
abbrev S32768 : Shape := ⟨1, ![32768]⟩
abbrev S1x32x64 : Shape := ⟨3, ![1, 32, 64]⟩
abbrev S32x64 : Shape := ⟨2, ![32, 64]⟩
abbrev S32768x32 : Shape := ⟨2, ![32768, 32]⟩
abbrev S32768x1 : Shape := ⟨2, ![32768, 1]⟩
abbrev S32x1 : Shape := ⟨2, ![32, 1]⟩

abbrev nBuf : Space → Nat
  | .hbm => 15
  | .vmem => 10
  | .smem => 0
  | _ => 0

abbrev bufTy : (tb : Table) → Fin (tcTables nBuf tb) → BufTy
  | .hbm, ⟨0, _⟩ => ⟨S4000000x64, .f32⟩
  | .hbm, ⟨1, _⟩ => ⟨S4000000, .i32⟩
  | .hbm, ⟨2, _⟩ => ⟨S_, .i32⟩
  | .hbm, ⟨3, _⟩ => ⟨S_, .f32⟩
  | .hbm, ⟨4, _⟩ => ⟨S4063232x64, .f32⟩
  | .hbm, ⟨5, _⟩ => ⟨S_, .i32⟩
  | .hbm, ⟨6, _⟩ => ⟨S_, .i32⟩
  | .hbm, ⟨7, _⟩ => ⟨S4063232, .i32⟩
  | .hbm, ⟨8, _⟩ => ⟨S2x32x64, .f32⟩
  | .hbm, ⟨9, _⟩ => ⟨S2x32x64, .f32⟩
  | .hbm, ⟨10, _⟩ => ⟨S_, .f32⟩
  | .hbm, ⟨11, _⟩ => ⟨S32x64, .f32⟩
  | .hbm, ⟨12, _⟩ => ⟨S_, .f32⟩
  | .hbm, ⟨13, _⟩ => ⟨S32x64, .f32⟩
  | .hbm, ⟨14, _⟩ => ⟨S32x64, .f32⟩
  | .local _ .vmem, ⟨0, _⟩ => ⟨S32768x64, .f32⟩
  | .local _ .vmem, ⟨1, _⟩ => ⟨S32768x64, .f32⟩
  | .local _ .vmem, ⟨2, _⟩ => ⟨S32768, .i32⟩
  | .local _ .vmem, ⟨3, _⟩ => ⟨S32768, .i32⟩
  | .local _ .vmem, ⟨4, _⟩ => ⟨S1x32x64, .f32⟩
  | .local _ .vmem, ⟨5, _⟩ => ⟨S1x32x64, .f32⟩
  | .local _ .vmem, ⟨6, _⟩ => ⟨S1x32x64, .f32⟩
  | .local _ .vmem, ⟨7, _⟩ => ⟨S1x32x64, .f32⟩
  | .local _ .vmem, ⟨8, _⟩ => ⟨S32x64, .f32⟩
  | .local _ .vmem, ⟨9, _⟩ => ⟨S32x64, .f32⟩
  | _, _ => ⟨S4000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 62], ![false, false]⟩

def k0_cond2 (i : grid0.Coords) : BitVec 1 :=
  let arg1 : BitVec 32 := BitVec.ofNat 32 (i 1).val
  let c61_i32 : BitVec 32 := 61#32
  let v30 : BitVec 1 := Scalar.cmpi .eq arg1 c61_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S4000000x64_S4063232x64_0632320_000 : S4000000x64.Pads (![0, 0] : Fin 2 → Nat) ![63232, 0] ![0, 0] S4063232x64
  h_S_ : 0 < S_.numel
  pads_S4000000_S4063232_0632320 : S4000000.Pads (![0] : Fin 1 → Nat) ![63232] ![0] S4063232
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32768_S32768_0 : ∀ a, (![0] : Fin 1 → Nat) a + S32768.size a ≤ S32768.size a
  h_S32768 : 0 < S32768.numel
  shapeCasts_S32768_S32768 : S32768.ShapeCasts S32768
  iota_S32768x32_d1_w32 : S32768x32.Iotas .tc 32 [1]
  shapeCasts_S32768_S32768x1 : S32768.ShapeCasts S32768x1
  broadcasts_S32768x1_S32768x32 : S32768x1.Broadcasts S32768x32
  natLt_1_32 : 1 < 32
  bitsLt_bf16_f32 : FTy.bits .bf16 < FTy.bits .f32
  inb_S32768x64_S32768x64_0_0 : ∀ a, (![0, 0] : Fin 2 → Nat) a + S32768x64.size a ≤ S32768x64.size a
  h_S32768x64 : 0 < S32768x64.numel
  shapeCasts_S32768x64_S32768x64 : S32768x64.ShapeCasts S32768x64
  shapeCasts_S32x1_S32x1 : S32x1.ShapeCasts S32x1
  broadcasts_S32x1_S32x64 : S32x1.Broadcasts S32x64
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  shapeCasts_S32x64_S1x32x64 : S32x64.ShapeCasts S1x32x64
  reducesTo_S2x32x64_S32x64_d0 : S2x32x64.ReducesTo [0] S32x64
  dot_S32768x32_S32768x64_S32x64_0_0_1_1_n_n_wf : DotDims.WF S32768x32 S32768x64 S32x64 [0] [0] [1] [1] [] []
  dot_S32768x32_S32768x1_S32x1_0_0_1_1_n_n_wf : DotDims.WF S32768x32 S32768x1 S32x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x64.size a ≤ S4063232x64.size a
  hwx0_0 : ∀ i : grid0.Coords, EltTy.bits .f32 = 32 ∨ (Rect.block (s := S4063232x64) S32768x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768.size a ≤ S4063232.size a
  hwx0_1 : ∀ i : grid0.Coords, EltTy.bits .i32 = 32 ∨ (Rect.block (s := S4063232) S32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x64.size a ≤ S2x32x64.size a
  hwx0_2 : ∀ i : grid0.Coords, EltTy.bits .f32 = 32 ∨ (Rect.block (s := S2x32x64) S1x32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x64.size a ≤ S2x32x64.size a
  hwx0_3 : ∀ i : grid0.Coords, EltTy.bits .f32 = 32 ∨ (Rect.block (s := S2x32x64) S1x32x64.size (cc0_transform_3 i) (hinb0_3 i)).WholeWords (EltTy.packing .f32)

variable [Facts₀]

def dot_S32768x32_S32768x64_S32x64_0_0_1_1_n_n : DotDims S32768x32 S32768x64 S32x64 where
  lhsContracting := [0]
  rhsContracting := [0]
  lhsNonContracting := [1]
  rhsNonContracting := [1]
  lhsBatch := []
  rhsBatch := []
  wf := dot_S32768x32_S32768x64_S32x64_0_0_1_1_n_n_wf
def dot_S32768x32_S32768x1_S32x1_0_0_1_1_n_n : DotDims S32768x32 S32768x1 S32x1 where
  lhsContracting := [0]
  rhsContracting := [0]
  lhsNonContracting := [1]
  rhsNonContracting := [1]
  lhsBatch := []
  rhsBatch := []
  wf := dot_S32768x32_S32768x1_S32x1_0_0_1_1_n_n_wf

abbrev win0_0 : Pipeline.Window sig grid0 :=
  Pipeline.Window.ofSpec (Memref.whole main_v0) S32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x32x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x32x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4000000x64 : Shape := ⟨2, ![4000000, 64]⟩
abbrev S4000000 : Shape := ⟨1, ![4000000]⟩
abbrev S_ : Shape := ⟨0, ![]⟩
abbrev S32x64 : Shape := ⟨2, ![32, 64]⟩
abbrev S4000000x1 : Shape := ⟨2, ![4000000, 1]⟩
abbrev S32 : Shape := ⟨1, ![32]⟩
abbrev S32x1 : Shape := ⟨2, ![32, 1]⟩

abbrev nBuf : Space → Nat
  | .hbm => 15
  | .vmem => 0
  | .smem => 0
  | _ => 0

abbrev bufTy : (tb : Table) → Fin (tcTables nBuf tb) → BufTy
  | .hbm, ⟨0, _⟩ => ⟨S4000000x64, .f32⟩
  | .hbm, ⟨1, _⟩ => ⟨S4000000, .i32⟩
  | .hbm, ⟨2, _⟩ => ⟨S_, .f32⟩
  | .hbm, ⟨3, _⟩ => ⟨S32x64, .f32⟩
  | .hbm, ⟨4, _⟩ => ⟨S4000000x1, .i32⟩
  | .hbm, ⟨5, _⟩ => ⟨S32x64, .f32⟩
  | .hbm, ⟨6, _⟩ => ⟨S_, .f32⟩
  | .hbm, ⟨7, _⟩ => ⟨S4000000, .f32⟩
  | .hbm, ⟨8, _⟩ => ⟨S_, .f32⟩
  | .hbm, ⟨9, _⟩ => ⟨S32, .f32⟩
  | .hbm, ⟨10, _⟩ => ⟨S4000000x1, .i32⟩
  | .hbm, ⟨11, _⟩ => ⟨S32, .f32⟩
  | .hbm, ⟨12, _⟩ => ⟨S32x1, .f32⟩
  | .hbm, ⟨13, _⟩ => ⟨S32x64, .f32⟩
  | .hbm, ⟨14, _⟩ => ⟨S32x64, .f32⟩
  | _, _ => ⟨S4000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S32x64 : S_.BroadcastsInDim S32x64 (![] : Fin 0 → Fin S32x64.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  scatter_S32x64_S4000000x1_S4000000x64_1_0_0_1_wf : ScatterDims.WF S32x64 S4000000x1 S4000000x64 [1] [0] [0] 1
  scatter_S32_S4000000x1_S4000000_n_0_0_1_wf : ScatterDims.WF S32 S4000000x1 S4000000 [] [0] [0] 1

variable [Facts₀]

def scatter_S32x64_S4000000x1_S4000000x64_1_0_0_1 : ScatterDims S32x64 S4000000x1 S4000000x64 where
  updateWindowDims := [1]
  insertedWindowDims := [0]
  scatterDimsToOperandDims := [0]
  indexVectorDim := 1
  wf := scatter_S32x64_S4000000x1_S4000000x64_1_0_0_1_wf
def scatter_S32_S4000000x1_S4000000_n_0_0_1 : ScatterDims S32 S4000000x1 S4000000 where
  updateWindowDims := []
  insertedWindowDims := [0]
  scatterDimsToOperandDims := [0]
  indexVectorDim := 1
  wf := scatter_S32_S4000000x1_S4000000_n_0_0_1_wf

class Facts : Prop extends Facts₀ where

variable [Facts]
-- ==== Proof.KernelPieces.lean ====
/-
  What one run of the pooling body leaves behind, case by case, as values.

  The body keeps two [32, 64] accumulators between grid points: the per-segment feature sums and the per-segment
  counts (broadcast along the 64 lanes). At the first tile of a half it stores zeros and then adds the tile's
  partial sums to what it reads back; at the other tiles it adds the tile's partial sums to what the tile before
  left; at the last tile of a half it also copies both accumulators into the two output blocks. Each of these is
  one covering store whose payload is a pure function of the tile's index words, the tile's features and the
  accumulator found, so what is left is that payload.
-/
import proofs.«426094_j19155554140413_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a half, the sums: zeros stored, read back, and the tile's partial sums added. -/
theorem sumsFirst (c : Dev nD) (i : grid0.Coords) (a2 : Memref sig .tc .vmem S32768x64 .f32) (h2 : a2.IsWhole) (a3 : Memref sig .tc .vmem S32768 .i32) (h3 : a3.IsWhole) (a4 : Memref sig .tc .vmem S1x32x64 .f32) (h4 : a4.IsWhole) (a5 : Memref sig .tc .vmem S1x32x64 .f32) (h5 : a5.IsWhole) (a6 : Memref sig .tc .vmem S32x64 .f32) (h6 : a6.IsWhole) (a7 : Memref sig .tc .vmem S32x64 .f32) (h7 : a7.IsWhole) (hc0 : cond0_0 i) (hc1 : ¬cond0_1 i)
    (x0 : Vec F S32768x64 .f32) (x1 : Vec F S32768 .i32) :
    sout0_A_0 c i a2 h2 a3 h3 a4 h4 a5 h5 a6 h6 a7 h7 hc0 hc1 x0 x1 = k0_pay4 x1 x0 (k0_pay1 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S32x64) hz2]
  simp only [View.readAt_eq_ld, h2.read_unread, h3.read_unread, h6.read_unread, h7.read_unread, View.ld_unit_zero (S := S32768x64) hz2, View.ld_unit_zero (S := S32768) hz1, View.ld_unit_zero (S := S32x64) hz2, View.readCov_unit_zero (S := S32x64) _ hz2]

/-- First tile of a half, the counts: zeros stored, read back, and the tile's counts added. -/
theorem cntsFirst (c : Dev nD) (i : grid0.Coords) (a2 : Memref sig .tc .vmem S32768x64 .f32) (h2 : a2.IsWhole) (a3 : Memref sig .tc .vmem S32768 .i32) (h3 : a3.IsWhole) (a4 : Memref sig .tc .vmem S1x32x64 .f32) (h4 : a4.IsWhole) (a5 : Memref sig .tc .vmem S1x32x64 .f32) (h5 : a5.IsWhole) (a6 : Memref sig .tc .vmem S32x64 .f32) (h6 : a6.IsWhole) (a7 : Memref sig .tc .vmem S32x64 .f32) (h7 : a7.IsWhole) (hc0 : cond0_0 i) (hc1 : ¬cond0_1 i)
    (x0 : Vec F S32768x64 .f32) (x1 : Vec F S32768 .i32) :
    sout0_A_1 c i a2 h2 a3 h3 a4 h4 a5 h5 a6 h6 a7 h7 hc0 hc1 x0 x1 = k0_pay5 x1 (k0_pay2 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S32x64) hz2]
  simp only [View.readAt_eq_ld, h2.read_unread, h3.read_unread, h6.read_unread, h7.read_unread, View.ld_unit_zero (S := S32768x64) hz2, View.ld_unit_zero (S := S32768) hz1, View.ld_unit_zero (S := S32x64) hz2, View.readCov_unit_zero (S := S32x64) _ hz2]

/-- A middle tile, the sums: the tile's partial sums added to what the tile before left. -/
theorem sumsMid (c : Dev nD) (i : grid0.Coords) (a2 : Memref sig .tc .vmem S32768x64 .f32) (h2 : a2.IsWhole) (a3 : Memref sig .tc .vmem S32768 .i32) (h3 : a3.IsWhole) (a4 : Memref sig .tc .vmem S1x32x64 .f32) (h4 : a4.IsWhole) (a5 : Memref sig .tc .vmem S1x32x64 .f32) (h5 : a5.IsWhole) (a6 : Memref sig .tc .vmem S32x64 .f32) (h6 : a6.IsWhole) (a7 : Memref sig .tc .vmem S32x64 .f32) (h7 : a7.IsWhole) (hc0 : ¬cond0_0 i) (hc1 : ¬cond0_1 i)
    (x0 : Vec F S32768x64 .f32) (x1 : Vec F S32768 .i32) (xs0 xs1 : Vec F S32x64 .f32) :
    sout0_B_0 c i a2 h2 a3 h3 a4 h4 a5 h5 a6 h6 a7 h7 hc0 hc1 x0 x1 xs0 xs1 = k0_pay4 x1 x0 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S32768x64) hz2, View.ld_unit_zero (S := S32768) hz1, View.ld_unit_zero (S := S32x64) hz2, View.readCov_unit_zero (S := S32x64) _ hz2]

/-- A middle tile, the counts. -/
theorem cntsMid (c : Dev nD) (i : grid0.Coords) (a2 : Memref sig .tc .vmem S32768x64 .f32) (h2 : a2.IsWhole) (a3 : Memref sig .tc .vmem S32768 .i32) (h3 : a3.IsWhole) (a4 : Memref sig .tc .vmem S1x32x64 .f32) (h4 : a4.IsWhole) (a5 : Memref sig .tc .vmem S1x32x64 .f32) (h5 : a5.IsWhole) (a6 : Memref sig .tc .vmem S32x64 .f32) (h6 : a6.IsWhole) (a7 : Memref sig .tc .vmem S32x64 .f32) (h7 : a7.IsWhole) (hc0 : ¬cond0_0 i) (hc1 : ¬cond0_1 i)
    (x0 : Vec F S32768x64 .f32) (x1 : Vec F S32768 .i32) (xs0 xs1 : Vec F S32x64 .f32) :
    sout0_B_1 c i a2 h2 a3 h3 a4 h4 a5 h5 a6 h6 a7 h7 hc0 hc1 x0 x1 xs0 xs1 = k0_pay5 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S32768x64) hz2, View.ld_unit_zero (S := S32768) hz1, View.ld_unit_zero (S := S32x64) hz2, View.readCov_unit_zero (S := S32x64) _ hz2]

/-- The last tile of a half, the sums: as at a middle tile. -/
theorem sumsLast (c : Dev nD) (i : grid0.Coords) (a2 : Memref sig .tc .vmem S32768x64 .f32) (h2 : a2.IsWhole) (a3 : Memref sig .tc .vmem S32768 .i32) (h3 : a3.IsWhole) (a4 : Memref sig .tc .vmem S1x32x64 .f32) (h4 : a4.IsWhole) (a5 : Memref sig .tc .vmem S1x32x64 .f32) (h5 : a5.IsWhole) (a6 : Memref sig .tc .vmem S32x64 .f32) (h6 : a6.IsWhole) (a7 : Memref sig .tc .vmem S32x64 .f32) (h7 : a7.IsWhole) (hc0 : ¬cond0_0 i) (hc1 : cond0_1 i)
    (x0 : Vec F S32768x64 .f32) (x1 : Vec F S32768 .i32) (xs0 xs1 : Vec F S32x64 .f32) :
    sout0_C_0 c i a2 h2 a3 h3 a4 h4 a5 h5 a6 h6 a7 h7 hc0 hc1 x0 x1 xs0 xs1 = k0_pay4 x1 x0 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S32768x64) hz2, View.ld_unit_zero (S := S32768) hz1, View.ld_unit_zero (S := S32x64) hz2, View.readCov_unit_zero (S := S32x64) _ hz2]

/-- The last tile of a half, the counts. -/
theorem cntsLast (c : Dev nD) (i : grid0.Coords) (a2 : Memref sig .tc .vmem S32768x64 .f32) (h2 : a2.IsWhole) (a3 : Memref sig .tc .vmem S32768 .i32) (h3 : a3.IsWhole) (a4 : Memref sig .tc .vmem S1x32x64 .f32) (h4 : a4.IsWhole) (a5 : Memref sig .tc .vmem S1x32x64 .f32) (h5 : a5.IsWhole) (a6 : Memref sig .tc .vmem S32x64 .f32) (h6 : a6.IsWhole) (a7 : Memref sig .tc .vmem S32x64 .f32) (h7 : a7.IsWhole) (hc0 : ¬cond0_0 i) (hc1 : cond0_1 i)
    (x0 : Vec F S32768x64 .f32) (x1 : Vec F S32768 .i32) (xs0 xs1 : Vec F S32x64 .f32) :
    sout0_C_1 c i a2 h2 a3 h3 a4 h4 a5 h5 a6 h6 a7 h7 hc0 hc1 x0 x1 xs0 xs1 = k0_pay5 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S32768x64) hz2, View.ld_unit_zero (S := S32768) hz1, View.ld_unit_zero (S := S32x64) hz2, View.readCov_unit_zero (S := S32x64) _ hz2]

/-- The last tile of a half, the sums' output block: the finished sums, with a leading unit axis. -/
theorem outSums (c : Dev nD) (i : grid0.Coords) (a2 : Memref sig .tc .vmem S32768x64 .f32) (h2 : a2.IsWhole) (a3 : Memref sig .tc .vmem S32768 .i32) (h3 : a3.IsWhole) (a4 : Memref sig .tc .vmem S1x32x64 .f32) (h4 : a4.IsWhole) (a5 : Memref sig .tc .vmem S1x32x64 .f32) (h5 : a5.IsWhole) (a6 : Memref sig .tc .vmem S32x64 .f32) (h6 : a6.IsWhole) (a7 : Memref sig .tc .vmem S32x64 .f32) (h7 : a7.IsWhole) (hc0 : ¬cond0_0 i) (hc1 : cond0_1 i)
    (x0 : Vec F S32768x64 .f32) (x1 : Vec F S32768 .i32) (xs0 xs1 : Vec F S32x64 .f32) :
    out0_C_2 c i a2 h2 a3 h3 a4 h4 a5 h5 a6 h6 a7 h7 hc0 hc1 x0 x1 xs0 xs1 = k0_pay6 (k0_pay4 x1 x0 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, h7.read_unread, View.ld_unit_zero (S := S32768x64) hz2, View.ld_unit_zero (S := S32768) hz1, View.ld_unit_zero (S := S32x64) hz2, View.readCov_unit_zero (S := S32x64) _ hz2]

/-- The last tile of a half, the counts' output block. -/
theorem outCnts (c : Dev nD) (i : grid0.Coords) (a2 : Memref sig .tc .vmem S32768x64 .f32) (h2 : a2.IsWhole) (a3 : Memref sig .tc .vmem S32768 .i32) (h3 : a3.IsWhole) (a4 : Memref sig .tc .vmem S1x32x64 .f32) (h4 : a4.IsWhole) (a5 : Memref sig .tc .vmem S1x32x64 .f32) (h5 : a5.IsWhole) (a6 : Memref sig .tc .vmem S32x64 .f32) (h6 : a6.IsWhole) (a7 : Memref sig .tc .vmem S32x64 .f32) (h7 : a7.IsWhole) (hc0 : ¬cond0_0 i) (hc1 : cond0_1 i)
    (x0 : Vec F S32768x64 .f32) (x1 : Vec F S32768 .i32) (xs0 xs1 : Vec F S32x64 .f32) :
    out0_C_3 c i a2 h2 a3 h3 a4 h4 a5 h5 a6 h6 a7 h7 hc0 hc1 x0 x1 xs0 xs1 = k0_pay7 (k0_pay5 x1 xs1) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, h7.read_unread, View.ld_unit_zero (S := S32768x64) hz2, View.ld_unit_zero (S := S32768) hz1, View.ld_unit_zero (S := S32x64) hz2, View.readCov_unit_zero (S := S32x64) _ hz2]

end Cert.KernelIdeal.Pieces

end
-- ==== Proof.LibColsDot.lean ====
/-
  A matrix product of a K-by-M array with a K-by-N array, both contracted on their first axis, read at an entry.

  With dimension numbers "first axis of the left against first axis of the right, no batch axis", the operand
  indices at result entry (r, c) and contraction position k are (k, r) on the left and (k, c) on the right: each
  result entry is the dot product of a column of the left operand with a column of the right operand. So, over the
  extended reals, a product accumulated into the zero array and a host dot_general are both
  ∑ k, lhs (k, r) * rhs (k, c).  Stated for any dimension record of that form, whatever its extents.
-/
import Idealize.ShloMosaic.Lib.ValueIdx
import Idealize.ShloMosaic.PureOps.Ideal.Laws

noncomputable section

namespace Idealize.ShloMosaic.ColsDot

open Idealize.ShloMosaic Idealize.ShloMosaic.ValueIdx

variable {K M N : Nat}

/-- The dimension numbers of a K×M by K×N product, columns against columns: first axis against first axis, the
    second axis of each operand kept, nothing batched. -/
structure IsColsByCols (d : DotDims (⟨2, ![K, M]⟩ : Shape) (⟨2, ![K, N]⟩ : Shape) (⟨2, ![M, N]⟩ : Shape)) : Prop where
  lc : d.lhsContracting = [0]
  rc : d.rhsContracting = [0]
  ln : d.lhsNonContracting = [1]
  rn : d.rhsNonContracting = [1]
  lb : d.lhsBatch = []
  rb : d.rhsBatch = []

variable {d : DotDims (⟨2, ![K, M]⟩ : Shape) (⟨2, ![K, N]⟩ : Shape) (⟨2, ![M, N]⟩ : Shape)}

/-- One axis is contracted. -/
theorem IsColsByCols.rank_contr (h : IsColsByCols d) : d.contr.rank = 1 := by
  rw [d.rank_contr, h.lc]; rfl

/-- Its extent is K, the operands' common first extent. -/
theorem IsColsByCols.size_contr (h : IsColsByCols d) : d.contr.size ⟨0, by rw [h.rank_contr]; exact Nat.one_pos⟩ = K := by
  have e := d.size_contr 0 (by rw [h.lc]; exact Nat.one_pos)
  rw [e]
  simp only [h.lc, List.getElem_cons_zero]
  rfl

/-- A result index read at two positions that are the same number is the same coordinate. -/
private theorem coord_congr (j : (⟨2, ![M, N]⟩ : Shape).Idx) (p q : Nat) (hp : p < (⟨2, ![M, N]⟩ : Shape).rank)
    (hq : q < (⟨2, ![M, N]⟩ : Shape).rank) (e : p = q) : (j ⟨p, hp⟩).val = (j ⟨q, hq⟩).val := by
  subst e; rfl

/-- The left operand's first coordinate is the contraction position. -/
theorem IsColsByCols.lhs_row (h : IsColsByCols d) (j : (⟨2, ![M, N]⟩ : Shape).Idx) (k : d.contr.Idx) :
    (d.lhsIdx j k 0).val = (k ⟨0, by rw [h.rank_contr]; exact Nat.one_pos⟩).val :=
  d.lhsIdx_val_of_single h.lc j k

/-- The left operand's second coordinate, its column, is the result's row. -/
theorem IsColsByCols.lhs_col (h : IsColsByCols d) (j : (⟨2, ![M, N]⟩ : Shape).Idx) (k : d.contr.Idx) :
    (d.lhsIdx j k 1).val = (j 0).val := by
  have hb : (1 : Fin (⟨2, ![K, M]⟩ : Shape).rank) ∉ d.lhsBatch := by rw [h.lb]; exact List.not_mem_nil
  have hn : (1 : Fin (⟨2, ![K, M]⟩ : Shape).rank) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The right operand's first coordinate is the contraction position. -/
theorem IsColsByCols.rhs_row (h : IsColsByCols d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's second coordinate, its column, is the result's column. -/
theorem IsColsByCols.rhs_col (h : IsColsByCols d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The sum over the contraction shape's positions, re-indexed by its one coordinate: entry (r, c) of the product
    is the dot product of column r of the left operand with column c of the right operand. -/
theorem IsColsByCols.sum_contr (h : IsColsByCols d) {α : Type} [AddCommMonoid α] [Mul α]
    (lhs : (⟨2, ![K, M]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 k r) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 k r :=
    funext fun a => Fin.ext (by
      match a with
      | ⟨0, _⟩ => exact (h.lhs_row _ _).trans hk
      | ⟨1, _⟩ => exact h.lhs_col _ _)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsColsByCols.matmul_zero_apply (h : IsColsByCols d) {φ₁ φ₂ : FTy} (prec : Option ContractPrecision)
    (lhs : FVec Ideal (⟨2, ![K, M]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 k r) * rhs (ix2 k c) := by
  rw [Ideal.matmul_constant_zero_apply]
  exact h.sum_contr lhs rhs r c

/-- A host dot_general, over the extended reals, at entry (r, c). -/
theorem IsColsByCols.dotGeneral_apply (h : IsColsByCols d) {φ₁ φ₂ : FTy} (prec : Option ContractPrecision) (sched : HostSchedule)
    (lhs : FVec Ideal (⟨2, ![K, M]⟩ : Shape) φ₁) (rhs : FVec Ideal (⟨2, ![K, N]⟩ : Shape) φ₂) (r : Fin M) (c : Fin N) :
    FloatOps.dotGeneral d prec sched lhs rhs (ix2 r c) = ∑ k : Fin K, lhs (ix2 k r) * rhs (ix2 k c) := by
  rw [Ideal.dotGeneral_apply]
  exact h.sum_contr lhs rhs r c

end Idealize.ShloMosaic.ColsDot

end
-- ==== Proof.LibOneHotRow.lean ====
/-
  A one-hot row against a column of extended reals.

  A kernel that wants row `w` of a small table without an indexed load builds the row of the identity matrix that
  has its one in column `w` — it compares the word `w` with the column numbers `0, 1, …, n - 1`, widens each answer
  bit to a word and converts the word to a float — and multiplies that row into the table. Over the extended reals
  the entries of the row are exactly `1` (in column `w`) and `0` (elsewhere), `0 * x = 0` and `1 * x = x` for EVERY
  extended real `x` (infinite ones included), so the sum over the columns is the one entry `x w`: no finiteness is
  needed. Stated for any number of columns `n ≤ 2 ^ 32` and any word below `n`.
-/
import Idealize.ShloMosaic.PureOps.Ideal
import Idealize.ShloMosaic.Lib.Affine

noncomputable section

namespace Idealize.ShloMosaic.OneHotRow

open Idealize.ShloMosaic

/-- An answer bit widened to a word, read signed, is the bit as a number. -/
theorem toInt_widen_bit (b : BitVec 1) : (b.setWidth 32).toInt = (b.toNat : ℤ) := by
  rcases BitVec.eq_zero_or_eq_one b with h | h <;> subst h <;> decide

/-- One entry of the row: the comparison of the word with column number `j`, widened and converted, is `1` when the
    word is `j` and `0` otherwise. -/
theorem entry (w : BitVec 32) (j : Nat) (hj : j < 2 ^ 32) :
    (FloatOps.sitofp (F := Ideal) .f32 ((IntOp.cmpi .eq w (BitVec.ofNat 32 j)).setWidth 32) : EReal)
      = if w.toNat = j then 1 else 0 := by
  show ((((IntOp.cmpi .eq w (BitVec.ofNat 32 j)).setWidth 32).toInt : ℝ) : EReal) = _
  rw [toInt_widen_bit]
  by_cases h : w.toNat = j
  · have e : w = BitVec.ofNat 32 j := BitVec.eq_of_toNat_eq (by rw [BitVec.toNat_ofNat, h, Nat.mod_eq_of_lt hj])
    rw [if_pos h, IntOp.cmpi_eq.mpr e]
    norm_num
  · have hne : ¬ w = BitVec.ofNat 32 j := fun e => h (by rw [e, BitVec.toNat_ofNat, Nat.mod_eq_of_lt hj])
    have e0 : IntOp.cmpi .eq w (BitVec.ofNat 32 j) = 0#1 := by
      rcases BitVec.eq_zero_or_eq_one (IntOp.cmpi .eq w (BitVec.ofNat 32 j)) with h0 | h1
      · exact h0
      · exact absurd (IntOp.cmpi_eq.mp h1) hne
    rw [if_neg h, e0]
    norm_num

/-- THE ROW TIMES A COLUMN: the one-hot row of the word `w` summed against `x` is `x w`. -/
theorem sum_mul {n : Nat} (hn : n ≤ 2 ^ 32) (w : BitVec 32) (hw : w.toNat < n) (x : Fin n → EReal) :
    ∑ j : Fin n, (FloatOps.sitofp (F := Ideal) .f32 ((IntOp.cmpi .eq w (BitVec.ofNat 32 j.val)).setWidth 32) : EReal) * x j
      = x ⟨w.toNat, hw⟩ := by
  rw [Finset.sum_eq_single (⟨w.toNat, hw⟩ : Fin n)]
  · rw [entry w _ (by omega), if_pos rfl, one_mul]
  · intro j _ hj
    rw [entry w _ (by have := j.isLt; omega), if_neg (fun e => hj (Fin.ext e.symm)), zero_mul]
  · intro h
    exact absurd (Finset.mem_univ _) h

end Idealize.ShloMosaic.OneHotRow

end
-- ==== Proof.KernelTile.lean ====
/-
  One tile's arithmetic, entry by entry, over the extended reals.

  For a tile of 32768 index words w and 32768 feature rows x the body forms the one-hot matrix
  H[n, s] = 1 if w[n] = s else 0 (s = 0..31) and adds to the accumulators it found
      sums[s, d]   += ∑ n, H[n, s] * x[n, d]
      counts[s, d] += ∑ n, H[n, s] * 1
  Over the extended reals a conversion of float format is the identity and both products are exact sums.
-/
import proofs.«426094_j19155554140413_2_alg».proof.Proof.Gen.KernelIdeal.Skeleton
import proofs.«426094_j19155554140413_2_alg».proof.Proof.LibColsDot
import proofs.«426094_j19155554140413_2_alg».proof.Proof.LibOneHotRow
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen

/-- One entry of a one-hot row: 1 where the index word is the segment number, 0 elsewhere. -/
def hot (w : BitVec 32) (s : Nat) : EReal := if w.toNat = s then 1 else 0

/-- The one-hot matrix of a tile's index words at (n, s). -/
theorem onehot_apply (v3 : Vec Ideal S32768 .i32) (n : Fin 32768) (s : Fin 32) :
    k0_pay3 (F := Ideal) v3 (ix2 n s) = hot (v3 (ix1 n)) s.val := by
  unfold k0_pay3
  dsimp only
  rw [truncf_apply, sitofp_apply, extui_apply]
  show FloatOps.sitofp (F := Ideal) .f32 ((IntOp.cmpi .eq (broadcastTo S32768x32 (shapeCast S32768x1 (shapeCast S32768 v3 _) _) _ (ix2 n s))
    (iota .tc S32768x32 32 [1] _ (ix2 n s))).setWidth 32) = _
  rw [iota_single_apply, shapeCast_self,
    broadcastTo_apply _ _ (ix2 n s) (ix2 n (0 : Fin 1)) (fun a => by
      match a with
      | ⟨0, _⟩ => show n.val = if (32768 : Nat) = 1 then 0 else n.val; rw [if_neg (by decide)]
      | ⟨1, _⟩ => show 0 = if (1 : Nat) = 1 then 0 else s.val; rw [if_pos rfl]),
    shapeCast_apply _ _ (ix2 n (0 : Fin 1)) (ix1 n) (by
      rw [Shape.rowMajor_val_one, Shape.rowMajor_val_two]
      show n.val = n.val * 1 + 0
      omega)]
  exact OneHotRow.entry (v3 (ix1 n)) s.val (by have := s.isLt; omega)

/-- The dimension numbers of both products: first axis against first axis. -/
theorem dims_sums : ColsDot.IsColsByCols dot_S32768x32_S32768x64_S32x64_0_0_1_1_n_n := ⟨rfl, rfl, rfl, rfl, rfl, rfl⟩
theorem dims_cnts : ColsDot.IsColsByCols dot_S32768x32_S32768x1_S32x1_0_0_1_1_n_n := ⟨rfl, rfl, rfl, rfl, rfl, rfl⟩

/-- The sums' accumulator after a tile: what it held plus the one-hot matrix against the tile's features. -/
theorem sums_apply (v3 : Vec Ideal S32768 .i32) (v12 : Vec Ideal S32768x64 .f32) (v20 : Vec Ideal S32x64 .f32)
    (s : Fin 32) (d : Fin 64) :
    k0_pay4 (F := Ideal) v3 v12 v20 (ix2 s d) = v20 (ix2 s d) + ∑ n : Fin 32768, hot (v3 (ix1 n)) s.val * v12 (ix2 n d) := by
  unfold k0_pay4
  rw [shapeCast_self, addf_apply]
  refine congrArg (v20 (ix2 s d) + ·) ?_
  refine (dims_sums.matmul_zero_apply none _ _ s d).trans (Finset.sum_congr rfl fun n _ => ?_)
  rw [onehot_apply, truncf_apply, shapeCast_self]

/-- The bf16 word of one is the extended real 1. -/
theorem one_bf16 : Ideal.ofBits .bf16 0x3F80#16 = 1 := by
  simp [Ideal.ofBits, Ideal.ieee, -EReal.coe_mul]; norm_num

/-- The counts' accumulator after a tile: what it held plus the number of the tile's rows in the segment. -/
theorem cnts_apply (v3 : Vec Ideal S32768 .i32) (v25 : Vec Ideal S32x64 .f32) (s : Fin 32) (d : Fin 64) :
    k0_pay5 (F := Ideal) v3 v25 (ix2 s d) = v25 (ix2 s d) + ∑ n : Fin 32768, hot (v3 (ix1 n)) s.val * (1 : EReal) := by
  unfold k0_pay5
  rw [shapeCast_self, addf_apply,
    broadcastTo_apply _ _ (ix2 s d) (ix2 s (0 : Fin 1)) (fun a => by
      match a with
      | ⟨0, _⟩ => show s.val = if (32 : Nat) = 1 then 0 else s.val; rw [if_neg (by decide)]
      | ⟨1, _⟩ => show 0 = if (1 : Nat) = 1 then 0 else d.val; rw [if_pos rfl]),
    shapeCast_self]
  refine congrArg (v25 (ix2 s d) + ·) ?_
  refine (dims_cnts.matmul_zero_apply none _ _ s (0 : Fin 1)).trans (Finset.sum_congr rfl fun n _ => ?_)
  rw [onehot_apply]
  exact congrArg (hot (v3 (ix1 n)) s.val * ·) one_bf16

/-- The block stored at the first tile of a half is zero. -/
theorem zero_sums (s : Fin 32) (d : Fin 64) : k0_pay1 (F := Ideal) (ix2 s d) = 0 := by
  unfold k0_pay1
  rw [shapeCast_self]
  exact Ideal.ofBits_zero_f32

theorem zero_cnts (s : Fin 32) (d : Fin 64) : k0_pay2 (F := Ideal) (ix2 s d) = 0 := by
  unfold k0_pay2
  rw [shapeCast_self]
  exact Ideal.ofBits_zero_f32

/-- The output blocks are the accumulators with a leading unit axis. -/
theorem out_sums_apply (v : Vec Ideal S32x64 .f32) (u : Fin 1) (s : Fin 32) (d : Fin 64) :
    k0_pay6 (F := Ideal) v (ix3 u s d) = v (ix2 s d) := by
  unfold k0_pay6
  exact shapeCast_ab_1ab_apply _ _ u s d

theorem out_cnts_apply (v : Vec Ideal S32x64 .f32) (u : Fin 1) (s : Fin 32) (d : Fin 64) :
    k0_pay7 (F := Ideal) v (ix3 u s d) = v (ix2 s d) := by
  unfold k0_pay7
  exact shapeCast_ab_1ab_apply _ _ u s d

end Cert.KernelIdeal.Tile

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.KernelChain.lean ====
/-
  The two accumulators along the grid.

  The grid's 124 points are numbered through: point t is tile t % 62 of half t / 62. At a half's first tile the
  accumulators restart from zero, at every other tile they add the tile's partial sums to what the tile before left.
  So after the last tile of a half (t % 62 = 61) they hold the sum of the half's 62 partial sums, and that is what
  the body copies into the output blocks there.
-/
import proofs.«426094_j19155554140413_2_alg».proof.Proof.Gen.KernelIdeal.Frame
import proofs.«426094_j19155554140413_2_alg».proof.Proof.KernelPieces
import proofs.«426094_j19155554140413_2_alg».proof.Proof.KernelTile
import proofs.«426094_j19155554140413_2_alg».proof.Proof.LibBlockSum
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Tile

variable (m : (ℓ : Loc nD τ sig) → Buf (Elt Ideal) ℓ)

/-- Tile t's feature rows and index words, at their literal types. -/
abbrev fblk (c : Dev nD) (t : Fin cfg0.N) : Vec Ideal S32768x64 .f32 := iblk m c 0 t
abbrev wblk (c : Dev nD) (t : Fin cfg0.N) : Vec Ideal S32768 .i32 := iblk m c 1 t

/-- Tile t's partial sum for segment s, lane d, and its partial count for segment s. -/
def psum (c : Dev nD) (t : Fin cfg0.N) (s : Fin 32) (d : Fin 64) : EReal :=
  ∑ n : Fin 32768, hot (wblk m c t (ix1 n)) s.val * fblk m c t (ix2 n d)
def pcnt (c : Dev nD) (t : Fin cfg0.N) (s : Fin 32) : EReal :=
  ∑ n : Fin 32768, hot (wblk m c t (ix1 n)) s.val * (1 : EReal)

theorem hN : cfg0.N = 124 := N_0

/-! ## One step, case by case -/

theorem sums_first (c : Dev nD) (t : Fin cfg0.N) (h0 : t.val % 62 = 0) (s : Fin 32) (d : Fin 64) :
    (outsAt0 m c t.val t.isLt).2.2.1 (ix2 s d) = 0 + psum m c t s d := by
  have h1 : ¬t.val % 62 = 61 := by omega
  rw [outsAt0_A m c t h0 h1]
  dsimp only
  refine (congrFun (Pieces.sumsFirst (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) (ix2 s d)).trans ?_
  refine (sums_apply (wblk m c t) (fblk m c t) (k0_pay1 (F := Ideal)) s d).trans ?_
  rw [zero_sums]
  rfl

theorem cnts_first (c : Dev nD) (t : Fin cfg0.N) (h0 : t.val % 62 = 0) (s : Fin 32) (d : Fin 64) :
    (outsAt0 m c t.val t.isLt).2.2.2 (ix2 s d) = 0 + pcnt m c t s := by
  have h1 : ¬t.val % 62 = 61 := by omega
  rw [outsAt0_A m c t h0 h1]
  dsimp only
  refine (congrFun (Pieces.cntsFirst (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) (ix2 s d)).trans ?_
  refine (cnts_apply (wblk m c t) (k0_pay2 (F := Ideal)) s d).trans ?_
  rw [zero_cnts]
  rfl

theorem sums_next (c : Dev nD) (t : Fin cfg0.N) (h0 : ¬t.val % 62 = 0) (s : Fin 32) (d : Fin 64) :
    (outsAt0 m c t.val t.isLt).2.2.1 (ix2 s d) = (outsAt0 m c (t.val - 1) (Nat.lt_of_le_of_lt (Nat.sub_le _ _) t.isLt)).2.2.1 (ix2 s d) + psum m c t s d := by
  by_cases h1 : t.val % 62 = 61
  · rw [outsAt0_C m c t h0 h1]
    dsimp only
    refine (congrFun (Pieces.sumsLast (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s d)).trans ?_
    exact sums_apply (wblk m c t) (fblk m c t) (outsAt0 m c (t.val - 1) (Nat.lt_of_le_of_lt (Nat.sub_le _ _) t.isLt)).2.2.1 s d
  · rw [outsAt0_B m c t h0 h1]
    dsimp only
    refine (congrFun (Pieces.sumsMid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s d)).trans ?_
    exact sums_apply (wblk m c t) (fblk m c t) (outsAt0 m c (t.val - 1) (Nat.lt_of_le_of_lt (Nat.sub_le _ _) t.isLt)).2.2.1 s d

theorem cnts_next (c : Dev nD) (t : Fin cfg0.N) (h0 : ¬t.val % 62 = 0) (s : Fin 32) (d : Fin 64) :
    (outsAt0 m c t.val t.isLt).2.2.2 (ix2 s d) = (outsAt0 m c (t.val - 1) (Nat.lt_of_le_of_lt (Nat.sub_le _ _) t.isLt)).2.2.2 (ix2 s d) + pcnt m c t s := by
  by_cases h1 : t.val % 62 = 61
  · rw [outsAt0_C m c t h0 h1]
    dsimp only
    refine (congrFun (Pieces.cntsLast (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s d)).trans ?_
    exact cnts_apply (wblk m c t) (outsAt0 m c (t.val - 1) (Nat.lt_of_le_of_lt (Nat.sub_le _ _) t.isLt)).2.2.2 s d
  · rw [outsAt0_B m c t h0 h1]
    dsimp only
    refine (congrFun (Pieces.cntsMid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s d)).trans ?_
    exact cnts_apply (wblk m c t) (outsAt0 m c (t.val - 1) (Nat.lt_of_le_of_lt (Nat.sub_le _ _) t.isLt)).2.2.2 s d

/-- At the last tile of a half the output blocks are the accumulators as that tile leaves them. -/
theorem out_sums_last (c : Dev nD) (t : Fin cfg0.N) (h1 : t.val % 62 = 61) (u : Fin 1) (s : Fin 32) (d : Fin 64) :
    (outsAt0 m c t.val t.isLt).1 (ix3 u s d) = (outsAt0 m c t.val t.isLt).2.2.1 (ix2 s d) := by
  have h0 : ¬t.val % 62 = 0 := by omega
  rw [outsAt0_C m c t h0 h1]
  dsimp only
  refine (congrFun (Pieces.outSums (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 u s d)).trans ?_
  refine (out_sums_apply _ u s d).trans ?_
  exact (congrFun (Pieces.sumsLast (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s d)).symm

theorem out_cnts_last (c : Dev nD) (t : Fin cfg0.N) (h1 : t.val % 62 = 61) (u : Fin 1) (s : Fin 32) (d : Fin 64) :
    (outsAt0 m c t.val t.isLt).2.1 (ix3 u s d) = (outsAt0 m c t.val t.isLt).2.2.2 (ix2 s d) := by
  have h0 : ¬t.val % 62 = 0 := by omega
  rw [outsAt0_C m c t h0 h1]
  dsimp only
  refine (congrFun (Pieces.outCnts (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 u s d)).trans ?_
  refine (out_cnts_apply _ u s d).trans ?_
  exact (congrFun (Pieces.cntsLast (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s d)).symm

/-! ## The accumulators as sequences over the point number -/

/-- The sums' accumulator entry (s, d) after point n, the counts' likewise, and the tiles' terms; 0 past the grid. -/
def accS (c : Dev nD) (s : Fin 32) (d : Fin 64) (n : ℕ) : EReal :=
  if hn : n < cfg0.N then (outsAt0 m c n hn).2.2.1 (ix2 s d) else 0
def accC (c : Dev nD) (s : Fin 32) (d : Fin 64) (n : ℕ) : EReal :=
  if hn : n < cfg0.N then (outsAt0 m c n hn).2.2.2 (ix2 s d) else 0
def stepS (c : Dev nD) (s : Fin 32) (d : Fin 64) (n : ℕ) : EReal :=
  if hn : n < cfg0.N then psum m c ⟨n, hn⟩ s d else 0
def stepC (c : Dev nD) (s : Fin 32) (n : ℕ) : EReal :=
  if hn : n < cfg0.N then pcnt m c ⟨n, hn⟩ s else 0

theorem accS_first (c : Dev nD) (s : Fin 32) (d : Fin 64) (n : ℕ) (hn : n < 124) (h0 : n % 62 = 0) :
    accS m c s d n = 0 + stepS m c s d n := by
  have hn' : n < cfg0.N := by rw [hN]; exact hn
  unfold accS stepS
  rw [dif_pos hn', dif_pos hn']
  exact sums_first m c ⟨n, hn'⟩ h0 s d

theorem accS_next (c : Dev nD) (s : Fin 32) (d : Fin 64) (n : ℕ) (hn : n < 124) (h0 : n % 62 ≠ 0) :
    accS m c s d n = accS m c s d (n - 1) + stepS m c s d n := by
  have hn' : n < cfg0.N := by rw [hN]; exact hn
  have hp' : n - 1 < cfg0.N := Nat.lt_of_le_of_lt (Nat.sub_le _ _) hn'
  unfold accS stepS
  rw [dif_pos hn', dif_pos hn', dif_pos hp']
  exact sums_next m c ⟨n, hn'⟩ h0 s d

theorem accC_first (c : Dev nD) (s : Fin 32) (d : Fin 64) (n : ℕ) (hn : n < 124) (h0 : n % 62 = 0) :
    accC m c s d n = 0 + stepC m c s n := by
  have hn' : n < cfg0.N := by rw [hN]; exact hn
  unfold accC stepC
  rw [dif_pos hn', dif_pos hn']
  exact cnts_first m c ⟨n, hn'⟩ h0 s d

theorem accC_next (c : Dev nD) (s : Fin 32) (d : Fin 64) (n : ℕ) (hn : n < 124) (h0 : n % 62 ≠ 0) :
    accC m c s d n = accC m c s d (n - 1) + stepC m c s n := by
  have hn' : n < cfg0.N := by rw [hN]; exact hn
  have hp' : n - 1 < cfg0.N := Nat.lt_of_le_of_lt (Nat.sub_le _ _) hn'
  unfold accC stepC
  rw [dif_pos hn', dif_pos hn', dif_pos hp']
  exact cnts_next m c ⟨n, hn'⟩ h0 s d

/-! ## After the last tile of a half -/

/-- The sums after the last tile of half t / 62: the sum of the half's 62 partial sums. -/
theorem sums_last (c : Dev nD) (t : Fin cfg0.N) (hl : t.val % 62 = 61) (s : Fin 32) (d : Fin 64) :
    (outsAt0 m c t.val t.isLt).2.2.1 (ix2 s d) = ∑ i : Fin 62, stepS m c s d (62 * (t.val / 62) + i.val) := by
  have ht : t.val < 124 := lt_of_lt_of_eq t.isLt hN
  have key := Cert.Hand.BlockSum.seg_acc_last_zero_add 62 (by norm_num) (accS m c s d) (stepS m c s d) 124
    (accS_first m c s d) (accS_next m c s d) t.val ht hl
  unfold accS at key
  rw [dif_pos t.isLt] at key
  exact key

theorem cnts_last (c : Dev nD) (t : Fin cfg0.N) (hl : t.val % 62 = 61) (s : Fin 32) (d : Fin 64) :
    (outsAt0 m c t.val t.isLt).2.2.2 (ix2 s d) = ∑ i : Fin 62, stepC m c s (62 * (t.val / 62) + i.val) := by
  have ht : t.val < 124 := lt_of_lt_of_eq t.isLt hN
  have key := Cert.Hand.BlockSum.seg_acc_last_zero_add 62 (by norm_num) (accC m c s d) (stepC m c s) 124
    (accC_first m c s d) (accC_next m c s d) t.val ht hl
  unfold accC at key
  rw [dif_pos t.isLt] at key
  exact key

end Cert.KernelIdeal.Chain

end
-- ==== Proof.KernelArrays.lean ====
/-
  From the output blocks to the two arrays the region leaves.

  The region's two outputs have shape [2, 32, 64]: block h of each is written back once, after the last tile of half h,
  and holds the accumulator as that tile leaves it: the sum over the half's 62 tiles of the tiles' partial sums (or
  partial counts). The two blocks tile the array, so the whole array is that function of (h, s, d). A tile's rows are
  rows t * 32768 .. t * 32768 + 32767 of the padded arrays.
-/
import proofs.«426094_j19155554140413_2_alg».proof.Proof.KernelChain

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Tile Cert.KernelIdeal.Chain

variable (m : (ℓ : Loc nD τ sig) → Buf (Elt Ideal) ℓ)

/-! ## The index maps, decided over the grid -/

/-- Tile t reads block row t of both padded arrays. -/
theorem idx_in : ∀ t : Fin cfg0.N, win0_0.index t (0 : Fin 2) = t.val ∧ win0_0.index t (1 : Fin 2) = 0
    ∧ win0_1.index t (0 : Fin 1) = t.val :=
  (by decide +kernel : ∀ t : Fin grid0.N, win0_0.index t (0 : Fin 2) = t.val ∧ win0_0.index t (1 : Fin 2) = 0
    ∧ win0_1.index t (0 : Fin 1) = t.val)

/-- Point t's output blocks are block t / 62 of the two output arrays. -/
theorem idx_out : ∀ t : Fin cfg0.N, win0_2.index t (0 : Fin 3) = t.val / 62 ∧ win0_2.index t (1 : Fin 3) = 0
    ∧ win0_2.index t (2 : Fin 3) = 0 ∧ win0_3.index t (0 : Fin 3) = t.val / 62 ∧ win0_3.index t (1 : Fin 3) = 0
    ∧ win0_3.index t (2 : Fin 3) = 0 :=
  (by decide +kernel : ∀ t : Fin grid0.N, win0_2.index t (0 : Fin 3) = t.val / 62 ∧ win0_2.index t (1 : Fin 3) = 0
    ∧ win0_2.index t (2 : Fin 3) = 0 ∧ win0_3.index t (0 : Fin 3) = t.val / 62 ∧ win0_3.index t (1 : Fin 3) = 0
    ∧ win0_3.index t (2 : Fin 3) = 0)

/-! ## A tile's rows in the padded arrays -/

theorem row_lt (t : Fin cfg0.N) (n : Fin 32768) : t.val * 32768 + n.val < 4063232 := by
  have h1 : t.val < 124 := lt_of_lt_of_eq t.isLt hN
  have h2 := n.isLt
  omega

/-- Row n of tile t's feature block is row t * 32768 + n of the padded feature array. -/
theorem fblk_apply (c : Dev nD) (t : Fin cfg0.N) (n : Fin 32768) (d : Fin 64) :
    fblk m c t (ix2 n d) = (V m c main_v0 : S4063232x64.Idx → EReal) (ix2 ⟨t.val * 32768 + n.val, row_lt t n⟩ d) := by
  obtain ⟨e0, e1, -⟩ := idx_in t
  show iblk m c 0 t (ix2 n d) = _
  unfold iblk
  rw [View.read_apply]
  show V m c main_v0 _ = V m c main_v0 _
  refine congrArg _ (funext fun a => Fin.ext ?_)
  match a with
  | ⟨0, _⟩ => show win0_0.index t (0 : Fin 2) * 32768 + 1 * n.val = t.val * 32768 + n.val; rw [e0]; omega
  | ⟨1, _⟩ => show win0_0.index t (1 : Fin 2) * 64 + 1 * d.val = d.val; rw [e1]; omega

/-- Word n of tile t's index block is word t * 32768 + n of the padded index array. -/
theorem wblk_apply (c : Dev nD) (t : Fin cfg0.N) (n : Fin 32768) :
    wblk m c t (ix1 n) = (V m c main_v1 : S4063232.Idx → BitVec 32) (ix1 ⟨t.val * 32768 + n.val, row_lt t n⟩) := by
  obtain ⟨-, -, e0⟩ := idx_in t
  show iblk m c 1 t (ix1 n) = _
  unfold iblk
  rw [View.read_apply]
  show V m c main_v1 _ = V m c main_v1 _
  refine congrArg _ (funext fun a => Fin.ext ?_)
  match a with
  | ⟨0, _⟩ => show win0_1.index t (0 : Fin 1) * 32768 + 1 * n.val = t.val * 32768 + n.val; rw [e0]; omega

/-! ## The two arrays -/

/-- The sums' array: entry (h, s, d) is the sum over half h's 62 tiles of the tiles' partial sums. -/
def sumsArr (c : Dev nD) : S2x32x64.Idx → EReal :=
  fun j => ∑ i : Fin 62, stepS m c (j 1) (j 2) (62 * (j 0).val + i.val)

/-- The counts' array: entry (h, s, d) is the sum over half h's 62 tiles of the tiles' partial counts. -/
def cntsArr (c : Dev nD) : S2x32x64.Idx → EReal :=
  fun j => ∑ i : Fin 62, stepC m c (j 1) (62 * (j 0).val + i.val)

/-- What the last tile of a half leaves in the sums' output block, entry by entry. -/
theorem out_sums_entry (c : Dev nD) (t : Fin cfg0.N) (hl : t.val % 62 = 61) (y : S1x32x64.Idx) :
    (outsAt0 m c t.val t.isLt).1 y = ∑ i : Fin 62, stepS m c (y 1) (y 2) (62 * (t.val / 62) + i.val) := by
  obtain ⟨u, s, d, rfl⟩ : ∃ (u : Fin 1) (s : Fin 32) (d : Fin 64), y = ix3 u s d := ⟨y 0, y 1, y 2, eq_ix3 y⟩
  exact (out_sums_last m c t hl u s d).trans (sums_last m c t hl s d)

theorem out_cnts_entry (c : Dev nD) (t : Fin cfg0.N) (hl : t.val % 62 = 61) (y : S1x32x64.Idx) :
    (outsAt0 m c t.val t.isLt).2.1 y = ∑ i : Fin 62, stepC m c (y 1) (62 * (t.val / 62) + i.val) := by
  obtain ⟨u, s, d, rfl⟩ : ∃ (u : Fin 1) (s : Fin 32) (d : Fin 64), y = ix3 u s d := ⟨y 0, y 1, y 2, eq_ix3 y⟩
  exact (out_cnts_last m c t hl u s d).trans (cnts_last m c t hl s d)

/-- The write-back after the last tile of a half writes that half's block of the sums' array. -/
theorem flushed_sums (c : Dev nD) (t : Fin cfg0.N) (hf : (cfg0.win 2).flush t = true) :
    (dats m 0 c).flushed 2 t = ((cfg0.win 2).blk t).view.read (Elt Ideal) (sumsArr m c) := by
  have hl : t.val % 62 = 61 := (flush0_2 t).mp hf
  obtain ⟨e0, e1, e2, -, -, -⟩ := idx_out t
  show (cfg0.win 2).cut (grid0.coords t) ((dats m 0 c).after 2 t) = _
  rw [after0_2]
  funext y
  show (outsAt0 m c t.val t.isLt).1 y = sumsArr m c (((cfg0.win 2).blk t).view.emb y)
  refine (out_sums_entry m c t hl y).trans ?_
  have hy0 : (y 0).val < 1 := (y 0).isLt
  have h0 : ((((cfg0.win 2).blk t).view.emb y) 0).val = t.val / 62 := by
    show win0_2.index t (0 : Fin 3) * 1 + 1 * (y 0).val = t.val / 62
    rw [e0]; omega
  have h1 : (((cfg0.win 2).blk t).view.emb y) 1 = y 1 := Fin.ext (by
    show win0_2.index t (1 : Fin 3) * 32 + 1 * (y 1).val = (y 1).val
    rw [e1]; omega)
  have h2 : (((cfg0.win 2).blk t).view.emb y) 2 = y 2 := Fin.ext (by
    show win0_2.index t (2 : Fin 3) * 64 + 1 * (y 2).val = (y 2).val
    rw [e2]; omega)
  show _ = ∑ i : Fin 62, stepS m c ((((cfg0.win 2).blk t).view.emb y) 1) ((((cfg0.win 2).blk t).view.emb y) 2)
    (62 * ((((cfg0.win 2).blk t).view.emb y) 0).val + i.val)
  rw [h0, h1, h2]

theorem flushed_cnts (c : Dev nD) (t : Fin cfg0.N) (hf : (cfg0.win 3).flush t = true) :
    (dats m 0 c).flushed 3 t = ((cfg0.win 3).blk t).view.read (Elt Ideal) (cntsArr m c) := by
  have hl : t.val % 62 = 61 := (flush0_3 t).mp hf
  obtain ⟨-, -, -, e0, e1, e2⟩ := idx_out t
  show (cfg0.win 3).cut (grid0.coords t) ((dats m 0 c).after 3 t) = _
  rw [after0_3]
  funext y
  show (outsAt0 m c t.val t.isLt).2.1 y = cntsArr m c (((cfg0.win 3).blk t).view.emb y)
  refine (out_cnts_entry m c t hl y).trans ?_
  have hy0 : (y 0).val < 1 := (y 0).isLt
  have h0 : ((((cfg0.win 3).blk t).view.emb y) 0).val = t.val / 62 := by
    show win0_3.index t (0 : Fin 3) * 1 + 1 * (y 0).val = t.val / 62
    rw [e0]; omega
  have h1 : (((cfg0.win 3).blk t).view.emb y) 1 = y 1 := Fin.ext (by
    show win0_3.index t (1 : Fin 3) * 32 + 1 * (y 1).val = (y 1).val
    rw [e1]; omega)
  show _ = ∑ i : Fin 62, stepC m c ((((cfg0.win 3).blk t).view.emb y) 1)
    (62 * ((((cfg0.win 3).blk t).view.emb y) 0).val + i.val)
  rw [h0, h1]

/-- Entry (h, s, d) lies in the block written back after the last tile of half h. -/
theorem cover_sums (i : S2x32x64.Idx) :
    ∃ t : Fin cfg0.N, (cfg0.win 2).flush t = true ∧ i ∈ ((cfg0.win 2).blk t).view.set := by
  have hi0 : (i 0).val < 2 := (i 0).isLt
  have hi1 : (i 1).val < 32 := (i 1).isLt
  have hi2 : (i 2).val < 64 := (i 2).isLt
  have hlt : 62 * (i 0).val + 61 < cfg0.N := by rw [hN]; omega
  obtain ⟨e0, e1, e2, -, -, -⟩ := idx_out ⟨62 * (i 0).val + 61, hlt⟩
  have ev : (⟨62 * (i 0).val + 61, hlt⟩ : Fin cfg0.N).val = 62 * (i 0).val + 61 := rfl
  rw [ev] at e0
  refine ⟨⟨62 * (i 0).val + 61, hlt⟩, (flush0_2 _).mpr (by rw [ev]; omega), ?_⟩
  show i ∈ ((View.whole main_v2_0).slice (win0_2.rect ⟨62 * (i 0).val + 61, hlt⟩)).set
  rw [View.set_slice_whole, Rect.mem_set_unit]
  intro a
  match a with
  | ⟨0, _⟩ =>
    show win0_2.index ⟨62 * (i 0).val + 61, hlt⟩ (0 : Fin 3) * 1 ≤ (i 0).val
      ∧ (i 0).val < win0_2.index ⟨62 * (i 0).val + 61, hlt⟩ (0 : Fin 3) * 1 + 1
    rw [e0]; omega
  | ⟨1, _⟩ =>
    show win0_2.index ⟨62 * (i 0).val + 61, hlt⟩ (1 : Fin 3) * 32 ≤ (i 1).val
      ∧ (i 1).val < win0_2.index ⟨62 * (i 0).val + 61, hlt⟩ (1 : Fin 3) * 32 + 32
    rw [e1]; omega
  | ⟨2, _⟩ =>
    show win0_2.index ⟨62 * (i 0).val + 61, hlt⟩ (2 : Fin 3) * 64 ≤ (i 2).val
      ∧ (i 2).val < win0_2.index ⟨62 * (i 0).val + 61, hlt⟩ (2 : Fin 3) * 64 + 64
    rw [e2]; omega

theorem cover_cnts (i : S2x32x64.Idx) :
    ∃ t : Fin cfg0.N, (cfg0.win 3).flush t = true ∧ i ∈ ((cfg0.win 3).blk t).view.set := by
  have hi0 : (i 0).val < 2 := (i 0).isLt
  have hi1 : (i 1).val < 32 := (i 1).isLt
  have hi2 : (i 2).val < 64 := (i 2).isLt
  have hlt : 62 * (i 0).val + 61 < cfg0.N := by rw [hN]; omega
  obtain ⟨-, -, -, e0, e1, e2⟩ := idx_out ⟨62 * (i 0).val + 61, hlt⟩
  have ev : (⟨62 * (i 0).val + 61, hlt⟩ : Fin cfg0.N).val = 62 * (i 0).val + 61 := rfl
  rw [ev] at e0
  refine ⟨⟨62 * (i 0).val + 61, hlt⟩, (flush0_3 _).mpr (by rw [ev]; omega), ?_⟩
  show i ∈ ((View.whole main_v2_1).slice (win0_3.rect ⟨62 * (i 0).val + 61, hlt⟩)).set
  rw [View.set_slice_whole, Rect.mem_set_unit]
  intro a
  match a with
  | ⟨0, _⟩ =>
    show win0_3.index ⟨62 * (i 0).val + 61, hlt⟩ (0 : Fin 3) * 1 ≤ (i 0).val
      ∧ (i 0).val < win0_3.index ⟨62 * (i 0).val + 61, hlt⟩ (0 : Fin 3) * 1 + 1
    rw [e0]; omega
  | ⟨1, _⟩ =>
    show win0_3.index ⟨62 * (i 0).val + 61, hlt⟩ (1 : Fin 3) * 32 ≤ (i 1).val
      ∧ (i 1).val < win0_3.index ⟨62 * (i 0).val + 61, hlt⟩ (1 : Fin 3) * 32 + 32
    rw [e1]; omega
  | ⟨2, _⟩ =>
    show win0_3.index ⟨62 * (i 0).val + 61, hlt⟩ (2 : Fin 3) * 64 ≤ (i 2).val
      ∧ (i 2).val < win0_3.index ⟨62 * (i 0).val + 61, hlt⟩ (2 : Fin 3) * 64 + 64
    rw [e2]; omega

/-- The region leaves the sums' array and the counts' array at those functions. -/
theorem final_sums (c : Dev nD) : (dats m 0 c).arrAt 2 cfg0.N = sumsArr m c :=
  (dats m 0 c).arrAt_eq_of_cover 2 (sumsArr m c) (flushed_sums m c) (cover_sums)

theorem final_cnts (c : Dev nD) : (dats m 0 c).arrAt 3 cfg0.N = cntsArr m c :=
  (dats m 0 c).arrAt_eq_of_cover 3 (cntsArr m c) (flushed_cnts m c) (cover_cnts)

end Cert.KernelIdeal.Arrays

end
-- ==== Proof.KernelHead.lean ====
import proofs.«426094_j19155554140413_2_alg».proof.Proof.Gen.KernelIdeal.Frame.Runs
import Idealize.ShloMosaic.Lib.Pipeline.Value
import Idealize.ShloMosaic.Lib.StableHlo.Run
import Idealize.ShloMosaic.Lib.KernelVsHost
import Idealize.ShloMosaic.Lib.ValueIdx

/-! # The two padded arrays the region finds

Before the region is entered the program pads its two inputs along the row axis, from 4,000,000 rows to
4,063,232 = 4,000,000 + 63,232 rows, with no low padding and no interior padding:

* the features, 4,000,000 × 64 floats, are padded with the float made from the integer word 0, which at the ideal
  values is the extended real 0 (the integer 0 converted): rows 4,000,000 … 4,063,231 are zero rows;
* the index words, 4,000,000 words of 32 bits, are padded with the word 32: the padding rows carry the sentinel 32.

Each padded array is first named as a whole — the host `pad` of the launched input with the padding scalar, nothing
between them having written either buffer — and then read at an index: a row below 4,000,000 lies inside the operand
(its coordinate is the operand's own, the low padding being 0 and the step 1), a row from 4,000,000 on lies outside
on the row axis, where `pad` gives the padding value. -/

namespace Cert.KernelIdeal.Head

open Cert.KernelIdeal Cert.KernelIdeal.Gen Idealize.ShloMosaic Idealize.ShloMosaic.TcCoe Idealize.SL.Sem Idealize.ShloMosaic.ValueIdx

noncomputable section

variable (m : (ℓ : Loc nD τ sig) → Buf (Elt Ideal) ℓ)

/-- When the region is entered, the padded features are the host `pad` of the launched features, 63,232 rows after
    the last one, with the integer word 0 converted to a float as the padding value. -/
theorem feat_whole (c : Dev nD) :
    (V m c main_v0 : S4063232x64.Idx → EReal)
      = pad S4063232x64 ![0, 0] ![63232, 0] ![0, 0] (m ((c : Thread nD τ).loc main_arg0) : S4000000x64.Idx → EReal)
          (sitofp (F := Ideal) .f32 (constantI S_ 32 0#32)) pads_S4000000x64_S4063232x64_0632320_000 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- When the region is entered, the padded index words are the host `pad` of the launched index words, 63,232
    entries after the last one, with the word 32 as the padding value. -/
theorem idx_whole (c : Dev nD) :
    (V m c main_v1 : S4063232.Idx → BitVec 32)
      = pad S4063232 ![0] ![63232] ![0] (m ((c : Thread nD τ).loc main_arg1) : S4000000.Idx → BitVec 32)
          (id (constantI S_ 32 32#32)) pads_S4000000_S4063232_0632320 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The padded features at row `n`, column `d`: the launched features there if `n` is a real row, and the extended
    real 0 if it is a padding row. -/
theorem feat_padded (c : Dev nD) (n : Fin 4063232) (d : Fin 64) :
    (V m c main_v0 : S4063232x64.Idx → EReal) (ix2 n d)
      = if h : n.val < 4000000 then (m ((c : Thread nD τ).loc main_arg0) : S4000000x64.Idx → EReal) (ix2 ⟨n.val, h⟩ d)
        else (0 : EReal) := by
  refine (congrFun (feat_whole m c) (ix2 n d)).trans ?_
  by_cases h : n.val < 4000000
  · -- inside the operand: on both axes the coordinate is `0 + k · (0 + 1)` for the operand's own coordinate `k`
    rw [dif_pos h]
    refine pad_apply_of_inside ![0, 0] ![63232, 0] ![0, 0] _ _ pads_S4000000x64_S4063232x64_0632320_000 h_S_
      (ix2 n d) (ix2 ⟨n.val, h⟩ d) ?_
    intro a
    fin_cases a <;> simp [ix2]
  · -- outside on the row axis: `(n − 0) / (0 + 1) = n` is not below 4,000,000
    rw [dif_neg h]
    refine (pad_apply_of_not_inside (s := S4000000x64) (t := S4063232x64) ![0, 0] ![63232, 0] ![0, 0] _ _
      pads_S4000000x64_S4063232x64_0632320_000 h_S_ (ix2 n d) 0 ?_).trans ?_
    · rintro ⟨_, _, h3⟩
      have h3' : (n.val - 0) / (0 + 1) < 4000000 := h3
      exact h (by simpa using h3')
    · -- the padding value: the integer 0 converted is the extended real 0
      exact sitofp_zero (φ := .f32)

/-- The padded index words at row `n`: the launched index word there if `n` is a real row, and the sentinel 32 if
    it is a padding row. -/
theorem idx_padded (c : Dev nD) (n : Fin 4063232) :
    (V m c main_v1 : S4063232.Idx → BitVec 32) (ix1 n)
      = if h : n.val < 4000000 then (m ((c : Thread nD τ).loc main_arg1) : S4000000.Idx → BitVec 32) (ix1 ⟨n.val, h⟩)
        else 32#32 := by
  refine (congrFun (idx_whole m c) (ix1 n)).trans ?_
  by_cases h : n.val < 4000000
  · -- inside the operand: the coordinate is `0 + k · (0 + 1)` for the operand's own coordinate `k`
    rw [dif_pos h]
    refine pad_apply_of_inside ![0] ![63232] ![0] _ _ pads_S4000000_S4063232_0632320 h_S_
      (ix1 n) (ix1 ⟨n.val, h⟩) ?_
    intro a
    fin_cases a
    simp [ix1]
  · -- outside: `(n − 0) / (0 + 1) = n` is not below 4,000,000; the padding value is the word 32 itself
    rw [dif_neg h]
    refine (pad_apply_of_not_inside (s := S4000000) (t := S4063232) ![0] ![63232] ![0] _ _
      pads_S4000000_S4063232_0632320 h_S_ (ix1 n) 0 ?_).trans rfl
    rintro ⟨_, _, h3⟩
    have h3' : (n.val - 0) / (0 + 1) < 4000000 := h3
    exact h (by simpa using h3')

end

end Cert.KernelIdeal.Head
-- ==== Proof.KernelTail.lean ====
/-
  The kernel program's result, entry by entry, from the two arrays its region leaves.

  The region leaves two 2×32×64 arrays: the two halves' partial sums and the two halves' partial counts, one
  32×64 slab per half. The lines after the region add each array's two slabs, starting from zero, and divide the
  first total by the second. So, over the extended reals, entry (s, d) of the result is

      (0 + ∑ h, sums (h, s, d)) / (0 + ∑ h, counts (h, s, d)),

  whatever the two arrays hold.
-/
import proofs.«426094_j19155554140413_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Tail

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- A sum over the first axis of a 2×32×64 array from the initial value zero, read at entry (s, d): zero plus the
    two slabs' entries there. The index the reduction inserts at position k of the summed axis is (k, s, d),
    coordinate by coordinate. -/
theorem reduce0_apply (X : S2x32x64.Idx → EReal) (s : Fin 32) (d : Fin 64) :
    (Host.reduceAdd (F := Ideal) (φ := .f32) X (constant (F := Ideal) S_ .f32 0x00000000#32)
        reducesTo_S2x32x64_S32x64_d0 h_S_ : S32x64.Idx → EReal) (ix2 s d)
      = 0 + ∑ h : Fin 2, X (ix3 h s d) := by
  show Ideal.hostReduceAdd reducesTo_S2x32x64_S32x64_d0 X (Ideal.ofBits .f32 0x00000000#32) (ix2 s d) = _
  rw [Ideal.hostReduceAdd_single reducesTo_S2x32x64_S32x64_d0 (by decide : S2x32x64.Reduces [0] S32x64),
    Ideal.ofBits_zero_f32]
  refine congrArg (0 + ·) (Finset.sum_congr rfl fun k _ => congrArg X ?_)
  funext a
  apply Fin.ext
  match a with
  | ⟨0, _⟩ => rfl
  | ⟨1, _⟩ => rfl
  | ⟨2, _⟩ => rfl

/-- The result array at entry (s, d): the quotient of the two slabs' partial sums added by the two slabs' partial
    counts added, each total started from zero. A2 and A3 are what the region leaves in its two output arrays; the
    lines after the region read exactly those two arrays and write nothing the quotient reads but their own totals. -/
theorem result_apply (c : Dev nD) (A2 A3 : S2x32x64.Idx → EReal)
    (h2 : (dats m 0 c).arrAt 2 cfg0.N = A2) (h3 : (dats m 0 c).arrAt 3 cfg0.N = A3) (s : Fin 32) (d : Fin 64) :
    (Pipeline.afterTail₀ cfgs (dats m) 0 (V0 m) [hostOps1] c main_v5 : S32x64.Idx → EReal) (ix2 s d)
      = Ideal.div (0 + ∑ h : Fin 2, A2 (ix3 h s d)) (0 + ∑ h : Fin 2, A3 (ix3 h s d)) := by
  -- at the region's exit the first output array holds A2 and the second A3
  have e2 : Pipeline.withArrays (cfgs 0).spec c (V0 m c) (fun w => (dats m 0 c).arrAt w (cfgs 0).N)
      (Proc.devRef .tc main_v2_0) = A2 :=
    (Pipeline.withArrays_arr spec0 winFacts0.arr_inj c (V0 m c) _ 2).trans h2
  have e3 : Pipeline.withArrays (cfgs 0).spec c (V0 m c) (fun w => (dats m 0 c).arrAt w (cfgs 0).N)
      (Proc.devRef .tc main_v2_1) = A3 :=
    (Pipeline.withArrays_arr spec0 winFacts0.arr_inj c (V0 m c) _ 3).trans h3
  -- the five lines after the region, composed: the quotient of the two sums over the first axis
  unfold Pipeline.afterTail₀
  show StableHlo.after hostOps1 _ (Proc.devRef .tc main_v5) _ = _
  after_results
  rw [e2, e3]
  -- the quotient is pointwise; each total is zero plus its two slabs' entries
  show Ideal.div _ _ = Ideal.div _ _
  rw [reduce0_apply, reduce0_apply]

end Cert.KernelIdeal.Tail

end
-- ==== Proof.SegAlgebra.lean ====
import Mathlib.Data.EReal.Basic
import Mathlib.Algebra.BigOperators.Fin
import proofs.«426094_j19155554140413_2_alg».proof.Proof.LibBlockSum

/-! # A segment sum computed tile by tile over a zero-padded array

An array of 4,000,000 rows, each carrying a 32-bit index word, is padded to 4,063,232 = 2 · 62 · 32768 rows; the
index word of every padding row is the sentinel 32, which names no segment (the segments are 0 … 31). For a segment
`s`, walking the padded array as 2 halves of 62 tiles of 32768 rows and adding the rows whose index word is `s`
gives the sum, over the 4,000,000 real rows, of those whose index word read as a signed integer is `s`:

* the three nested sums visit every padded position exactly once, position `(62 · h + i) · 32768 + n`;
* a padding row has index word 32 ≠ s, so it contributes `0 · y = 0`;
* on a real row, a word `w` has `w.toNat = s` exactly when `w.toInt = s`, because `s < 32 < 2³¹`;
* `1 · y = y` and `0 · y = 0` hold for every extended real, the infinite ones included, so nothing is assumed
  finite, and the values of `y` past the last real row are arbitrary. -/

namespace Cert.SegAlgebra

noncomputable section

open scoped BigOperators

/-- The index words of the padded array: the real ones, then the sentinel 32. -/
def idxp (idx : Fin 4000000 → BitVec 32) (n : ℕ) : BitVec 32 := if h : n < 4000000 then idx ⟨n, h⟩ else 32#32

/-- On a real row the padded index word is the row's own. -/
theorem idxp_real (idx : Fin 4000000 → BitVec 32) (e : Fin 4000000) : idxp idx e.val = idx e := by
  unfold idxp
  rw [dif_pos e.isLt]

/-- On a padding row the index word is the sentinel 32. -/
theorem idxp_pad (idx : Fin 4000000 → BitVec 32) (n : ℕ) (hn : 4000000 ≤ n) : idxp idx n = 32#32 := by
  unfold idxp
  rw [dif_neg (Nat.not_lt.mpr hn)]

/-- A 32-bit word is the small number `s < 32` as an unsigned integer exactly when it is `s` as a signed one:
    below 2³¹ the two readings agree, and from 2³¹ on the unsigned one is at least 2³¹ and the signed one negative. -/
theorem toNat_eq_iff_toInt_eq (w : BitVec 32) (s : ℕ) (hs : s < 32) : w.toNat = s ↔ w.toInt = (s : ℤ) := by
  have hw : w.toNat < 2 ^ 32 := w.isLt
  rw [BitVec.toInt_eq_toNat_cond]
  split_ifs with h <;> omega

/-- Two halves of 62 tiles of 32768 rows are the 4,063,232 padded rows, row `n` of tile `i` of half `h` being
    position `(62 · h + i) · 32768 + n`. -/
theorem sum_tiles (g : ℕ → EReal) :
    ∑ h : Fin 2, ∑ i : Fin 62, ∑ n : Fin 32768, g ((62 * h.val + i.val) * 32768 + n.val)
      = ∑ k : Fin 4063232, g k.val := by
  have e1 := Cert.Hand.BlockSum.sum_blocks_nat_cast (M := EReal) 124 32768 4063232 (by norm_num) g
  have e2 := Cert.Hand.BlockSum.sum_blocks_nat_cast (M := EReal) 2 62 124 (by norm_num)
    (fun b => ∑ n : Fin 32768, g (b * 32768 + n.val))
  refine Eq.trans ?_ (e2.trans e1)
  refine Finset.sum_congr rfl fun h _ => Finset.sum_congr rfl fun i _ => Finset.sum_congr rfl fun n _ => ?_
  rw [Nat.mul_comm 62 h.val]

/-- A sum over the padded rows whose terms vanish on the padding is the sum over the real rows. -/
theorem sum_padded_eq_sum_real (g : ℕ → EReal) (hg : ∀ n, 4000000 ≤ n → g n = 0) :
    ∑ k : Fin 4063232, g k.val = ∑ e : Fin 4000000, g e.val := by
  have key := Fin.sum_trunc (a := 4000000) (b := 63232) (fun k : Fin (4000000 + 63232) => g k.val)
    (fun j => hg _ (by rw [Fin.val_natAdd]; exact Nat.le_add_right _ _))
  simpa only [Fin.val_castAdd] using key

/-- The term of a real row: the 0/1 weight of "index word is `s`" times the row's value is the row's value if the
    word read as a signed integer is `s`, and zero otherwise. -/
theorem term_real (w : BitVec 32) (s : ℕ) (hs : s < 32) (v : EReal) :
    (if w.toNat = s then (1 : EReal) else 0) * v = if w.toInt = (s : ℤ) then v else 0 := by
  by_cases h : w.toNat = s
  · rw [if_pos h, if_pos ((toNat_eq_iff_toInt_eq w s hs).mp h), one_mul]
  · rw [if_neg h, if_neg (fun h' => h ((toNat_eq_iff_toInt_eq w s hs).mpr h')), zero_mul]

/-- The term of a padding row is zero: the sentinel 32 is not a segment `s < 32`. -/
theorem term_pad (s : ℕ) (hs : s < 32) (v : EReal) :
    (if (32#32 : BitVec 32).toNat = s then (1 : EReal) else 0) * v = 0 := by
  have h32 : (32#32 : BitVec 32).toNat = 32 := rfl
  rw [h32, if_neg (by omega), zero_mul]

/-- The segment sum walked tile by tile over the padded array, with the sentinel on the padding, is the plain
    segment sum over the real rows, the index words read as signed integers. -/
theorem seg_sum_padded (idx : Fin 4000000 → BitVec 32) (x : Fin 4000000 → EReal) (y : ℕ → EReal)
    (hy : ∀ e : Fin 4000000, y e.val = x e) (s : Fin 32) :
    ∑ h : Fin 2, ∑ i : Fin 62, ∑ n : Fin 32768,
        (if (idxp idx ((62 * h.val + i.val) * 32768 + n.val)).toNat = s.val then (1 : EReal) else 0)
          * y ((62 * h.val + i.val) * 32768 + n.val)
      = ∑ e : Fin 4000000, if (idx e).toInt = (s.val : ℤ) then x e else 0 := by
  have hpad : ∀ n, 4000000 ≤ n → (if (idxp idx n).toNat = s.val then (1 : EReal) else 0) * y n = 0 := by
    intro n hn
    rw [idxp_pad idx n hn]
    exact term_pad s.val s.isLt (y n)
  have hreal : ∀ e : Fin 4000000,
      (if (idxp idx e.val).toNat = s.val then (1 : EReal) else 0) * y e.val
        = if (idx e).toInt = (s.val : ℤ) then x e else 0 := by
    intro e
    rw [idxp_real idx e, hy e]
    exact term_real (idx e) s.val s.isLt (x e)
  exact (sum_tiles (fun n => (if (idxp idx n).toNat = s.val then (1 : EReal) else 0) * y n)).trans
    ((sum_padded_eq_sum_real (fun n => (if (idxp idx n).toNat = s.val then (1 : EReal) else 0) * y n) hpad).trans
      (Finset.sum_congr rfl fun e _ => hreal e))

end

end Cert.SegAlgebra
-- ==== Proof.KernelResult.lean ====
/-
  The kernel program's result, entry by entry, as a function of the two launched arrays.

  Entry (s, d) of the result is the quotient of 0 + the two halves' sums by 0 + the two halves' counts. Each half's
  sum is a sum over its 62 tiles of 32768 rows of the padded arrays, one-hot entry times feature; the padded rows
  carry the sentinel 32, which is no segment, so over the two halves the sum is the sum, over the 4,000,000 launched
  rows whose index word read as a signed integer is s, of the row's feature d; the counts likewise with 1 for the
  feature.
-/
import proofs.«426094_j19155554140413_2_alg».proof.Proof.KernelArrays
import proofs.«426094_j19155554140413_2_alg».proof.Proof.KernelHead
import proofs.«426094_j19155554140413_2_alg».proof.Proof.KernelTail
import proofs.«426094_j19155554140413_2_alg».proof.Proof.SegAlgebra

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Tile Cert.KernelIdeal.Chain Cert.KernelIdeal.Arrays
open Cert.SegAlgebra (idxp)

variable (m : (ℓ : Loc nD τ sig) → Buf (Elt Ideal) ℓ)

/-- The launched features and index words. -/
abbrev feat (c : Dev nD) : S4000000x64.Idx → EReal := m ((c : Thread nD τ).loc main_arg0)
abbrev idxw (c : Dev nD) : S4000000.Idx → BitVec 32 := m ((c : Thread nD τ).loc main_arg1)

/-- Column d of the padded features by row number (0 past the padded array's end). -/
def ycol (c : Dev nD) (d : Fin 64) (k : ℕ) : EReal :=
  if hk : k < 4063232 then (V m c main_v0 : S4063232x64.Idx → EReal) (ix2 ⟨k, hk⟩ d) else 0

/-- On the launched rows the padded column is the launched column. -/
theorem ycol_real (c : Dev nD) (d : Fin 64) (e : Fin 4000000) : ycol m c d e.val = feat m c (ix2 e d) := by
  have he : e.val < 4063232 := by have := e.isLt; omega
  unfold ycol
  rw [dif_pos he]
  refine (Head.feat_padded m c ⟨e.val, he⟩ d).trans ?_
  exact dif_pos e.isLt

/-- The padded index words by row number: the launched ones, then the sentinel. -/
theorem word_padded (c : Dev nD) (k : ℕ) (hk : k < 4063232) :
    (V m c main_v1 : S4063232.Idx → BitVec 32) (ix1 ⟨k, hk⟩) = idxp (fun e => idxw m c (ix1 e)) k :=
  Head.idx_padded m c ⟨k, hk⟩

/-- One tile's partial sum over the padded arrays. -/
theorem stepS_eq (c : Dev nD) (s : Fin 32) (d : Fin 64) (h : Fin 2) (i : Fin 62) :
    stepS m c s d (62 * h.val + i.val)
      = ∑ n : Fin 32768, (if (idxp (fun e => idxw m c (ix1 e)) ((62 * h.val + i.val) * 32768 + n.val)).toNat = s.val then (1 : EReal) else 0)
          * ycol m c d ((62 * h.val + i.val) * 32768 + n.val) := by
  have hlt : 62 * h.val + i.val < cfg0.N := by rw [hN]; have := h.isLt; have := i.isLt; omega
  unfold stepS
  rw [dif_pos hlt]
  unfold psum
  refine Finset.sum_congr rfl fun n _ => ?_
  rw [wblk_apply, fblk_apply, word_padded]
  unfold ycol
  rw [dif_pos (row_lt ⟨62 * h.val + i.val, hlt⟩ n)]
  rfl

/-- One tile's partial count over the padded index words. -/
theorem stepC_eq (c : Dev nD) (s : Fin 32) (h : Fin 2) (i : Fin 62) :
    stepC m c s (62 * h.val + i.val)
      = ∑ n : Fin 32768, (if (idxp (fun e => idxw m c (ix1 e)) ((62 * h.val + i.val) * 32768 + n.val)).toNat = s.val then (1 : EReal) else 0)
          * (fun _ : ℕ => (1 : EReal)) ((62 * h.val + i.val) * 32768 + n.val) := by
  have hlt : 62 * h.val + i.val < cfg0.N := by rw [hN]; have := h.isLt; have := i.isLt; omega
  unfold stepC
  rw [dif_pos hlt]
  unfold pcnt
  refine Finset.sum_congr rfl fun n _ => ?_
  rw [wblk_apply, word_padded]
  rfl

/-- The two halves' sums together: the segment sum over the launched rows. -/
theorem sums_total (c : Dev nD) (s : Fin 32) (d : Fin 64) :
    ∑ h : Fin 2, sumsArr m c (ix3 h s d)
      = ∑ e : Fin 4000000, if (idxw m c (ix1 e)).toInt = (s.val : ℤ) then feat m c (ix2 e d) else 0 := by
  rw [← Cert.SegAlgebra.seg_sum_padded (fun e => idxw m c (ix1 e)) (fun e => feat m c (ix2 e d)) (ycol m c d)
    (ycol_real m c d) s]
  refine Finset.sum_congr rfl fun h _ => ?_
  show ∑ i : Fin 62, stepS m c s d (62 * h.val + i.val) = _
  exact Finset.sum_congr rfl fun i _ => stepS_eq m c s d h i

/-- The two halves' counts together: the number of launched rows in the segment. -/
theorem cnts_total (c : Dev nD) (s : Fin 32) (d : Fin 64) :
    ∑ h : Fin 2, cntsArr m c (ix3 h s d)
      = ∑ e : Fin 4000000, if (idxw m c (ix1 e)).toInt = (s.val : ℤ) then (1 : EReal) else 0 := by
  rw [← Cert.SegAlgebra.seg_sum_padded (fun e => idxw m c (ix1 e)) (fun _ => (1 : EReal)) (fun _ => (1 : EReal))
    (fun _ => rfl) s]
  refine Finset.sum_congr rfl fun h _ => ?_
  show ∑ i : Fin 62, stepC m c s (62 * h.val + i.val) = _
  exact Finset.sum_congr rfl fun i _ => stepC_eq m c s h i

/-- THE RESULT at (s, d): the segment's feature sum over the segment's row count, both with their leading zero. -/
theorem result_apply (c : Dev nD) (s : Fin 32) (d : Fin 64) :
    (Pipeline.afterTail₀ cfgs (dats m) 0 (V0 m) [hostOps1] c main_v5 : S32x64.Idx → EReal) (ix2 s d)
      = Ideal.div (0 + ∑ e : Fin 4000000, if (idxw m c (ix1 e)).toInt = (s.val : ℤ) then feat m c (ix2 e d) else 0)
                  (0 + ∑ e : Fin 4000000, if (idxw m c (ix1 e)).toInt = (s.val : ℤ) then (1 : EReal) else 0) := by
  rw [Tail.result_apply m c (sumsArr m c) (cntsArr m c) (final_sums m c) (final_cnts m c) s d, sums_total, cnts_total]

end Cert.KernelIdeal.Result

end
-- ==== Proof.LibRowScatter.lean ====
/-
  A scatter-add of whole rows, read at an index, over the extended reals.

  What `zeros.at[idx].add(upd)` (a segment sum) of updates `upd : [E, D]` at a column of row indices `idx : [E, 1]` into
  an operand `x : [N, D]` lowers to: a `stablehlo.scatter` with an add body, update_window_dims `[1]`,
  inserted_window_dims `[0]`, scatter_dims_to_operand_dims `[0]` and index_vector_dim `1`. Over the extended reals
  element `(v, c)` of the result is the operand's plus the sum of the updates `upd[e, c]` over the rows `e` whose index
  `idx[e, 0]`, read as a signed integer and NOT clamped, is `v`: an update whose index is no row of the operand is
  dropped.
-/
import Idealize.ShloMosaic.PureOps.Ideal
import Idealize.ShloMosaic.Lib.ValueIdx

noncomputable section

open scoped BigOperators

namespace Cert.LibRowScatter

open Idealize.ShloMosaic Idealize.ShloMosaic.ValueIdx

/-! ## The four coordinates of the landing index

For an update index `(e, c')`: on the operand's row axis the window starts at the signed word `idx[e, 0]` and has
coordinate `0` (the axis is inserted); on the column axis it starts at `0` and has coordinate `c'`. Each fact is read off
the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the column axis, which the map does not name, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  rfl

/-- The row axis is inserted: its window coordinate is `0`. -/
theorem window_row (e : Fin E) (c' : Fin D) : s.window (ix2 e c') 0 = 0 := by
  obtain ⟨uw, iw, sd, iv, wf⟩ := s
  subst huw hiw hsd hiv
  rfl

/-- The column axis carries the update's one window axis: its window coordinate is the update's column. -/
theorem window_col (e : Fin E) (c' : Fin D) : s.window (ix2 e c') 1 = c'.val := by
  obtain ⟨uw, iw, sd, iv, wf⟩ := s
  subst huw hiw hsd hiv
  rfl

/-- WHERE AN UPDATE LANDS: update index `(e, c')` lands on `(v, c)` exactly when the signed index of row `e` is `v`
    and `c'` is `c`. Left to right the landing index exists, so the row's start is nonnegative and its `toNat` is `v`;
    right to left both sums are in range (`v < N`, `c' < D`) and the index built from them is `(v, c)`. -/
theorem resultIdx?_eq_some_iff (idx : IVec (⟨2, ![E, 1]⟩ : Shape) w) (e : Fin E) (c' : Fin D) (v : Fin N) (c : Fin D) :
    s.resultIdx? (ix2 e c') idx = some (ix2 v c)
      ↔ (idx (ix2 e (0 : Fin 1))).toInt = (v.val : ℤ) ∧ c'.val = c.val := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      constructor <;> omega
    · exact absurd h (by simp)
  · rintro ⟨hv, hc⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c.val
      rw [h1, w1]; omega

end Coordinates

/-! ## The sum over the landing updates, row by row -/

/-- A sum over the columns of a term guarded by "`A` holds and the column is `c`" is the term at `c` guarded by `A`:
    when `A` holds only the column `c` contributes, and when it fails every term is `0`. -/
theorem sum_guarded_column {D : Nat} (A : Prop) [Decidable A] (c : Fin D) (f : Fin D → EReal) :
    (∑ c' : Fin D, if A ∧ c'.val = c.val then f c' else 0) = if A then f c else 0 := by
  by_cases hA : A
  · rw [if_pos hA]
    refine (Finset.sum_eq_single c (fun b _ hb => if_neg fun h => hb (Fin.ext h.2))
      (fun h => absurd (Finset.mem_univ c) h)).trans ?_
    exact if_pos ⟨hA, rfl⟩
  · rw [if_neg hA]
    exact Finset.sum_eq_zero fun b _ => if_neg fun h => hA h.1

/-- The sum of the updates that land on `(v, c)` is the sum over the update rows `e` whose signed index is `v` of the
    update's element `(e, c)`: the filtered sum is a sum of guarded terms over all update indices, that is a double sum
    over rows and columns, and in each row the guard keeps the one column `c`. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  refine (Finset.sum_congr rfl fun c' _ => ?_).trans
    (sum_guarded_column ((idx (ix2 e (0 : Fin 1))).toInt = (v.val : ℤ)) c fun c' => upd (ix2 e c'))
  exact if_congr (resultIdx?_eq_some_iff s huw hiw hsd hiv idx e c' v c) rfl rfl

/-- THE ROW SCATTER-ADD READ AT `(v, c)`: for any dimension-number record of the segment-sum form, the operand's element
    plus the sum over the update rows `e` whose signed index is `v` of the update's element `(e, c)`. -/
theorem rowScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowScatter

end
-- ==== Proof.LibSegCount.lean ====
/-
  A scatter-add of scalars, read at an index, over the extended reals.

  What a segment sum of a VECTOR of updates `upd : [E]` at a column of indices `idx : [E, 1]` into an operand `x : [N]`
  lowers to: a `stablehlo.scatter` with an add body, no update window axis (update_window_dims `[]`),
  inserted_window_dims `[0]`, scatter_dims_to_operand_dims `[0]` and index_vector_dim `1`. Over the extended reals
  element `v` of the result is the operand's plus the sum of the updates `upd[e]` over the positions `e` whose index
  `idx[e, 0]`, read as a signed integer and NOT clamped, is `v`: an update whose signed index is no position of the
  operand is dropped.
-/
import Idealize.ShloMosaic.PureOps.Ideal
import Idealize.ShloMosaic.Lib.ValueIdx

noncomputable section

open scoped BigOperators

namespace Cert.LibSegCount

open Idealize.ShloMosaic Idealize.ShloMosaic.ValueIdx

/-! ## A sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-! ## The one coordinate of the landing index

For an update index `e`: the operand's one axis is inserted, so its window coordinate is `0`, and the window starts at
the signed word `idx[e, 0]`. Each fact is read off the record once its four lists are the stated literals. -/

section Coordinates

variable {N E w : Nat}
  (s : ScatterDims (⟨1, ![N]⟩ : Shape) (⟨2, ![E, 1]⟩ : Shape) (⟨1, ![E]⟩ : Shape))
  (huw : s.updateWindowDims = []) (hiw : s.insertedWindowDims = [0])
  (hsd : s.scatterDimsToOperandDims = [0]) (hiv : s.indexVectorDim = 1)

include huw hiw hsd hiv

/-- On the operand's axis the window starts at the signed index of the update's position. -/
theorem start_axis (idx : IVec (⟨2, ![E, 1]⟩ : Shape) w) (e : Fin E) :
    s.start (ix1 e) idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- The operand's axis is inserted: its window coordinate is `0`. -/
theorem window_axis (e : Fin E) : s.window (ix1 e) 0 = 0 := by
  obtain ⟨uw, iw, sd, iv, wf⟩ := s
  subst huw hiw hsd hiv
  rfl

/-- WHERE AN UPDATE LANDS: update index `e` lands on `v` exactly when its signed index is `v`. Left to right the
    landing index exists, so the start is nonnegative and its `toNat` is `v`; right to left the start is in range
    (`v < N`) and the index built from it is `v`. -/
theorem resultIdx?_eq_some_iff (idx : IVec (⟨2, ![E, 1]⟩ : Shape) w) (e : Fin E) (v : Fin N) :
    s.resultIdx? (ix1 e) idx = some (ix1 v) ↔ (idx (ix2 e (0 : Fin 1))).toInt = (v.val : ℤ) := by
  have h0 := start_axis s huw hiw hsd hiv idx e
  have w0 := window_axis s huw hiw hsd hiv e
  unfold ScatterDims.resultIdx?
  constructor
  · intro h
    split at h
    · rename_i hr
      have hf := Option.some.inj h
      have e0 := congrArg Fin.val (congrFun hf 0)
      have r0 := (hr 0).1
      simp only [h0, w0] at e0 r0
      change _ = v.val at e0
      omega
    · exact absurd h (by simp)
  · intro hv
    have hr : ∀ a, 0 ≤ s.start (ix1 e) idx a + s.window (ix1 e) a ∧
        s.start (ix1 e) idx a + s.window (ix1 e) a < (⟨1, ![N]⟩ : Shape).size a := by
      intro a
      match a with
      | ⟨0, _⟩ =>
        show 0 ≤ s.start (ix1 e) idx 0 + s.window (ix1 e) 0 ∧
          s.start (ix1 e) idx 0 + s.window (ix1 e) 0 < (N : ℤ)
        rw [h0, w0, hv]; have := v.isLt; omega
    rw [dif_pos hr]
    refine congrArg some ?_
    funext a
    refine Fin.ext ?_
    match a with
    | ⟨0, _⟩ =>
      show (s.start (ix1 e) idx 0 + s.window (ix1 e) 0).toNat = v.val
      rw [h0, w0, hv]; omega

end Coordinates

/-! ## The sum over the landing updates -/

/-- The sum of the updates that land on `v` is the sum over the update positions `e` of `upd[e]` guarded by
    "the signed index of `e` is `v`": the filtered sum is a sum of guarded terms over all update indices, that is over
    their one coordinate, and the guard is the landing condition. -/
theorem sum_landing {N E w : Nat}
    (s : ScatterDims (⟨1, ![N]⟩ : Shape) (⟨2, ![E, 1]⟩ : Shape) (⟨1, ![E]⟩ : Shape))
    (huw : s.updateWindowDims = []) (hiw : s.insertedWindowDims = [0])
    (hsd : s.scatterDimsToOperandDims = [0]) (hiv : s.indexVectorDim = 1)
    (idx : IVec (⟨2, ![E, 1]⟩ : Shape) w) (upd : (⟨1, ![E]⟩ : Shape).Idx → EReal) (v : Fin N) :
    (∑ j ∈ Finset.univ.filter (fun j => s.resultIdx? j idx = some (ix1 v)), upd j)
      = ∑ e : Fin E, if (idx (ix2 e (0 : Fin 1))).toInt = (v.val : ℤ) then upd (ix1 e) else 0 := by
  rw [Finset.sum_filter, sum_idx1]
  refine Finset.sum_congr rfl fun e _ => ?_
  exact if_congr (resultIdx?_eq_some_iff s huw hiw hsd hiv idx e v) rfl rfl

/-- THE SCATTER-ADD OF SCALARS READ AT `v`: for any dimension-number record of the segment-sum form, the operand's
    element plus the sum over the update positions `e` whose signed index is `v` of the update's element `e`. -/
theorem segScatterAdd_apply {φ : FTy} {N E w : Nat}
    (s : ScatterDims (⟨1, ![N]⟩ : Shape) (⟨2, ![E, 1]⟩ : Shape) (⟨1, ![E]⟩ : Shape))
    (huw : s.updateWindowDims = []) (hiw : s.insertedWindowDims = [0])
    (hsd : s.scatterDimsToOperandDims = [0]) (hiv : s.indexVectorDim = 1)
    (x : FVec Ideal (⟨1, ![N]⟩ : Shape) φ) (idx : IVec (⟨2, ![E, 1]⟩ : Shape) w)
    (upd : FVec Ideal (⟨1, ![E]⟩ : Shape) φ) (v : Fin N) :
    Host.scatterAdd s x idx upd (ix1 v)
      = x (ix1 v) + ∑ e : Fin E, if (idx (ix2 e (0 : Fin 1))).toInt = (v.val : ℤ) then upd (ix1 e) else 0 := by
  exact congrArg (x (ix1 v) + ·) (sum_landing s huw hiw hsd hiv idx upd v)

end Cert.LibSegCount

end
-- ==== Proof.RefValue.lean ====
/-
  The reference's result read at an entry, over the extended reals: the segment sums divided by the segment counts.

  The reference scatters the rows of `x0 : [4000000, 64]` into `[32, 64]` zeros by the segment ids `x1 : [4000000]` with an add
  body, scatters ones into `[32]` zeros by the same ids, and divides the first by the second broadcast along the columns.
  Entry `(s, d)` of the result is therefore the quotient of `0 + ∑ e, [x1[e] = s] · x0[e, d]` by `0 + ∑ e, [x1[e] = s] · 1`,
  the id read as a signed integer and not clamped: a row whose id is no segment is dropped from both sums.
-/
import proofs.«426094_j19155554140413_2_alg».proof.Proof.Gen.ReferenceIdeal.Read
import proofs.«426094_j19155554140413_2_alg».proof.Proof.LibRowScatter
import proofs.«426094_j19155554140413_2_alg».proof.Proof.LibSegCount
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The constants and the index column -/

/-- The f32 word `0x3F800000` is the extended real `1`. -/
theorem ofBits_one_f32 : Ideal.ofBits .f32 0x3F800000#32 = 1 := by
  simp [Ideal.ofBits, Ideal.ieee, -EReal.coe_mul]; norm_num

/-- The operand of the row scatter is the zero splat. -/
theorem zeros2_apply (i : S32x64.Idx) : val_main_v0 (F := Ideal) i = 0 := by
  rw [val_main_v0_apply, val_main_cst_apply]
  exact Ideal.ofBits_zero_f32

/-- The operand of the count scatter is the zero splat. -/
theorem zeros1_apply (i : S32.Idx) : val_main_v4 (F := Ideal) i = 0 := by
  rw [val_main_v4_apply, val_main_cst_1_apply]
  exact Ideal.ofBits_zero_f32

/-- The updates of the count scatter are the ones splat. -/
theorem ones_apply (i : S4000000.Idx) : val_main_v3 (F := Ideal) i = 1 := by
  rw [val_main_v3_apply, val_main_cst_0_apply]
  exact ofBits_one_f32

/-- The row scatter's index column at `(e, 0)` is the segment id of row `e`. -/
theorem ids_col_v1 (x1 : (⟨S4000000, .i32⟩ : BufTy).Contents (Elt Ideal)) (e : Fin 4000000) :
    val_main_v1 (F := Ideal) x1 (ix2 e (0 : Fin 1)) = x1 (ix1 e) := by
  rw [val_main_v1_apply]
  refine congrArg x1 ?_
  funext a
  match a with
  | ⟨0, _⟩ => rfl

/-- The count scatter's index column at `(e, 0)` is the segment id of row `e`. -/
theorem ids_col_v5 (x1 : (⟨S4000000, .i32⟩ : BufTy).Contents (Elt Ideal)) (e : Fin 4000000) :
    val_main_v5 (F := Ideal) x1 (ix2 e (0 : Fin 1)) = x1 (ix1 e) := by
  rw [val_main_v5_apply]
  refine congrArg x1 ?_
  funext a
  match a with
  | ⟨0, _⟩ => rfl

/-! ## The two scatters read at an index -/

/-- THE SEGMENT SUMS: entry `(s, d)` of the row scatter is `0` plus the sum of `x0[e, d]` over the rows `e` whose id is
    `s`. -/
theorem sums_apply (x0 : (⟨S4000000x64, .f32⟩ : BufTy).Contents (Elt Ideal))
    (x1 : (⟨S4000000, .i32⟩ : BufTy).Contents (Elt Ideal)) (s : Fin 32) (d : Fin 64) :
    val_main_v2 (F := Ideal) x0 x1 (ix2 s d)
      = 0 + ∑ e : Fin 4000000, if (x1 (ix1 e)).toInt = (s.val : ℤ) then x0 (ix2 e d) else 0 := by
  unfold val_main_v2
  refine (Cert.LibRowScatter.rowScatterAdd_apply scatter_S32x64_S4000000x1_S4000000x64_1_0_0_1 rfl rfl rfl rfl
    (val_main_v0 (F := Ideal)) (val_main_v1 (F := Ideal) x1) x0 s d).trans ?_
  rw [zeros2_apply]
  refine congrArg (0 + ·) (Finset.sum_congr rfl fun e _ => ?_)
  rw [ids_col_v1]

/-- THE SEGMENT COUNTS: entry `s` of the count scatter is `0` plus the number of rows whose id is `s`, as a sum of
    ones. -/
theorem counts_apply (x1 : (⟨S4000000, .i32⟩ : BufTy).Contents (Elt Ideal)) (s : Fin 32) :
    val_main_v6 (F := Ideal) x1 (ix1 s)
      = 0 + ∑ e : Fin 4000000, if (x1 (ix1 e)).toInt = (s.val : ℤ) then (1 : EReal) else 0 := by
  unfold val_main_v6
  refine (Cert.LibSegCount.segScatterAdd_apply scatter_S32_S4000000x1_S4000000_n_0_0_1 rfl rfl rfl rfl
    (val_main_v4 (F := Ideal)) (val_main_v5 (F := Ideal) x1) (val_main_v3 (F := Ideal)) s).trans ?_
  rw [zeros1_apply]
  refine congrArg (0 + ·) (Finset.sum_congr rfl fun e _ => ?_)
  rw [ids_col_v5, ones_apply]

/-- The divisor at `(s, d)` is the count of segment `s`: the two broadcasts read the count vector at `s`. -/
theorem divisor_apply (x1 : (⟨S4000000, .i32⟩ : BufTy).Contents (Elt Ideal)) (s : Fin 32) (d : Fin 64) :
    val_main_v8 (F := Ideal) x1 (ix2 s d) = val_main_v6 (F := Ideal) x1 (ix1 s) := by
  rw [val_main_v8_apply, val_main_v7_apply]
  refine congrArg (val_main_v6 (F := Ideal) x1) ?_
  funext a
  match a with
  | ⟨0, _⟩ => rfl

/-! ## The result -/

/-- THE REFERENCE'S RESULT AT `(s, d)`: the segment sum of column `d` over segment `s` divided by the segment's count. -/
theorem result_apply (x0 : (⟨S4000000x64, .f32⟩ : BufTy).Contents (Elt Ideal))
    (x1 : (⟨S4000000, .i32⟩ : BufTy).Contents (Elt Ideal)) (s : Fin 32) (d : Fin 64) :
    val_main_v9 (F := Ideal) x0 x1 (ix2 s d)
      = Ideal.div (0 + ∑ e : Fin 4000000, if (x1 (ix1 e)).toInt = (s.val : ℤ) then x0 (ix2 e d) else 0)
                  (0 + ∑ e : Fin 4000000, if (x1 (ix1 e)).toInt = (s.val : ℤ) then (1 : EReal) else 0) := by
  rw [val_main_v9_apply]
  show Ideal.div (val_main_v2 (F := Ideal) x0 x1 (ix2 s d)) (val_main_v8 (F := Ideal) x1 (ix2 s d)) = _
  rw [sums_apply, divisor_apply, counts_apply]

end Cert.ReferenceIdeal.RefValue

end
-- ==== Proof.lean ====
/-
  Segment mean by one-hot products against jax.ops.segment_sum, over the extended reals.

  The kernel pads 4,000,000 rows of 64 features to 2 · 62 · 32768 rows (zero rows, index sentinel 32), and for each
  of the two halves walks 62 tiles: a tile's one-hot matrix of its index words against the segment numbers 0..31,
  multiplied into the tile's features and into a column of ones, is added to two accumulators, which the last tile
  of the half copies out. The host then adds the two halves and divides sums by counts. The reference scatters the
  rows, and a column of ones, into 32 segments by their index read as a signed integer (an index that is no segment
  is dropped) and divides. Over the extended reals a change of float format is the identity, the products and sums
  are exact, and addition is commutative and associative with 0 * x = 0 and 1 * x = x for every x, so both programs
  compute, at (s, d), the quotient of 0 + the sum of feature d over the rows of segment s by 0 + the number of those
  rows: the same two operands of the same division, whatever the inputs (the precondition is not needed).

  The three frames are the generated ones (the reference's is its generated run with the result dropped); nothing
  was rewritten by the idealization, so that claim is trivial.
-/
import proofs.«426094_j19155554140413_2_alg».proof.Defs
import proofs.«426094_j19155554140413_2_alg».proof.Proof.Gen.Kernel
import proofs.«426094_j19155554140413_2_alg».proof.Proof.Gen.Kernel.Skeleton
import proofs.«426094_j19155554140413_2_alg».proof.Proof.Gen.Kernel.Launch
import proofs.«426094_j19155554140413_2_alg».proof.Proof.Gen.Kernel.Points
import proofs.«426094_j19155554140413_2_alg».proof.Proof.Gen.Kernel.Frame
import proofs.«426094_j19155554140413_2_alg».proof.Proof.Gen.KernelIdeal
import proofs.«426094_j19155554140413_2_alg».proof.Proof.Gen.KernelIdeal.Skeleton
import proofs.«426094_j19155554140413_2_alg».proof.Proof.Gen.KernelIdeal.Launch
import proofs.«426094_j19155554140413_2_alg».proof.Proof.Gen.KernelIdeal.Points
import proofs.«426094_j19155554140413_2_alg».proof.Proof.Gen.KernelIdeal.Frame
import proofs.«426094_j19155554140413_2_alg».proof.Proof.Gen.ReferenceIdeal
import proofs.«426094_j19155554140413_2_alg».proof.Proof.Gen.ReferenceIdeal.Run
import proofs.«426094_j19155554140413_2_alg».proof.Proof.Gen.ReferenceIdeal.Read
import proofs.«426094_j19155554140413_2_alg».proof.Proof.Gen.Pre_finite_inputs
import proofs.«426094_j19155554140413_2_alg».proof.Proof.KernelResult
import proofs.«426094_j19155554140413_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's frame: its generated run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The kernel program's run, read: its result at the host tail's term, its arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v5)
          = Pipeline.afterTail₀ Cert.KernelIdeal.cfgs (Cert.KernelIdeal.Gen.dats m) 0 (Cert.KernelIdeal.Gen.V0 m) [Cert.KernelIdeal.Gen.hostOps1] c Cert.KernelIdeal.main_v5
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨(h c).2 Cert.KernelIdeal.main_v5 (Pipeline.mem_restRefs_of Cert.KernelIdeal.main_v5 (by decide) (by decide)),
     ((h c).2 Cert.KernelIdeal.main_arg0 (Pipeline.mem_restRefs_of Cert.KernelIdeal.main_arg0 (by decide) (by decide))).trans
       (Cert.KernelIdeal.Gen.W_main_arg0 m (Cert.KernelIdeal.Gen.dats m) c),
     ((h c).2 Cert.KernelIdeal.main_arg1 (Pipeline.mem_restRefs_of Cert.KernelIdeal.main_arg1 (by decide) (by decide))).trans
       (Cert.KernelIdeal.Gen.W_main_arg1 m (Cert.KernelIdeal.Gen.dats m) c)⟩)
    (Cert.KernelIdeal.Gen.run_main m ρ)

/-- Both programs end with the same result: entry by entry the same quotient of the same two sums. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v5, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2]
  funext j
  obtain ⟨s, d, rfl⟩ : ∃ (s : Fin 32) (d : Fin 64), j = ix2 s d := ⟨j 0, j 1, eq_ix2 j⟩
  exact (Cert.ReferenceIdeal.RefValue.result_apply _ _ s d).trans (Cert.KernelIdeal.Result.result_apply m c s d).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
